-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v63)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v63) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v67) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S2x1600000 : Shape := ⟨2, ![2, 1600000]⟩
abbrev S128x64 : Shape := ⟨2, ![128, 64]⟩
abbrev S64 : Shape := ⟨1, ![64]⟩
abbrev S64x10 : Shape := ⟨2, ![64, 10]⟩
abbrev S10 : Shape := ⟨1, ![10]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S128x64 : S_.BroadcastsInDim S128x64 (![] : Fin 0 → Fin S128x64.rank)
  reducesTo_S128x64_S_d0_1 : S128x64.ReducesTo [0, 1] S_
  bcast_S_S64 : S_.BroadcastsInDim S64 (![] : Fin 0 → Fin S64.rank)
  reducesTo_S64_S_d0 : S64.ReducesTo [0] S_
  bcast_S_S64x10 : S_.BroadcastsInDim S64x10 (![] : Fin 0 → Fin S64x10.rank)
  reducesTo_S64x10_S_d0_1 : S64x10.ReducesTo [0, 1] S_
  bcast_S_S10 : S_.BroadcastsInDim S10 (![] : Fin 0 → Fin S10.rank)
  reducesTo_S10_S_d0 : S10.ReducesTo [0] S_

variable [Facts]

def fn_part1 {F : FTy → Type} [FloatOps F] (main_arg5 : FVec F S10 .f32) (main_v13 : IVec S_ 1) (main_v16 : IVec S64x10 1) : IVec S_ 1 :=
  let main_c_5 : IVec S_ 1 := constantI S_ 1 1#1
  let main_v17 : IVec S_ 1 := (fun x v => Host.reduce IntOp.andi x v reducesTo_S64x10_S_d0_1 h_S_) main_v16 main_c_5
  let main_v18 : IVec S_ 1 := andi main_v13 main_v17
  let main_v19 : FVec F S10 .f32 := Host.absf main_arg5
  let main_cst_6 : FVec F S_ .f32 := constant S_ .f32 0x7F800000#32
  let main_v20 : FVec F S10 .f32 := broadcastInDim S10 ![] bcast_S_S10 main_cst_6
  let main_v21 : IVec S10 1 := cmpf .olt main_v19 main_v20
  let main_c_7 : IVec S_ 1 := constantI S_ 1 1#1
  let main_v22 : IVec S_ 1 := (fun x v => Host.reduce IntOp.andi x v reducesTo_S10_S_d0 h_S_) main_v21 main_c_7
  let main_v23 : IVec S_ 1 := andi main_v18 main_v22
  main_v23

def fn {F : FTy → Type} [FloatOps F] (main_arg0 : FVec F S100000x128 .f32) (main_arg1 : IVec S2x1600000 32) (main_arg2 : FVec F S128x64 .f32) (main_arg3 : FVec F S64 .f32) (main_arg4 : FVec F S64x10 .f32) (main_arg5 : FVec F S10 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S128x64 .f32 := Host.absf main_arg2
  let main_cst_0 : FVec F S_ .f32 := constant S_ .f32 0x7F800000#32
  let main_v5 : FVec F S128x64 .f32 := broadcastInDim S128x64 ![] bcast_S_S128x64 main_cst_0
  let main_v6 : IVec S128x64 1 := cmpf .olt main_v4 main_v5
  let main_c_1 : IVec S_ 1 := constantI S_ 1 1#1
  let main_v7 : IVec S_ 1 := (fun x v => Host.reduce IntOp.andi x v reducesTo_S128x64_S_d0_1 h_S_) main_v6 main_c_1
  let main_v8 : IVec S_ 1 := andi main_v3 main_v7
  let main_v9 : FVec F S64 .f32 := Host.absf main_arg3
  let main_cst_2 : FVec F S_ .f32 := constant S_ .f32 0x7F800000#32
  let main_v10 : FVec F S64 .f32 := broadcastInDim S64 ![] bcast_S_S64 main_cst_2
  let main_v11 : IVec S64 1 := cmpf .olt main_v9 main_v10
  let main_c_3 : IVec S_ 1 := constantI S_ 1 1#1
  let main_v12 : IVec S_ 1 := (fun x v => Host.reduce IntOp.andi x v reducesTo_S64_S_d0 h_S_) main_v11 main_c_3
  let main_v13 : IVec S_ 1 := andi main_v8 main_v12
  let main_v14 : FVec F S64x10 .f32 := Host.absf main_arg4
  let main_cst_4 : FVec F S_ .f32 := constant S_ .f32 0x7F800000#32
  let main_v15 : FVec F S64x10 .f32 := broadcastInDim S64x10 ![] bcast_S_S64x10 main_cst_4
  let main_v16 : IVec S64x10 1 := cmpf .olt main_v14 main_v15
  fn_part1 (F := F) main_arg5 main_v13 main_v16
-- ==== Kernel.lean ====
abbrev S100000x128 : Shape := ⟨2, ![100000, 128]⟩
abbrev S2x1600000 : Shape := ⟨2, ![2, 1600000]⟩
abbrev S128x64 : Shape := ⟨2, ![128, 64]⟩
abbrev S64 : Shape := ⟨1, ![64]⟩
abbrev S64x10 : Shape := ⟨2, ![64, 10]⟩
abbrev S10 : Shape := ⟨1, ![10]⟩
abbrev S100000 : Shape := ⟨1, ![100000]⟩
abbrev S1x1600000 : Shape := ⟨2, ![1, 1600000]⟩
abbrev S1600000 : Shape := ⟨1, ![1600000]⟩
abbrev S1700000 : Shape := ⟨1, ![1700000]⟩
abbrev S_ : Shape := ⟨0, ![]⟩
abbrev S1700000x1 : Shape := ⟨2, ![1700000, 1]⟩
abbrev S100000x64 : Shape := ⟨2, ![100000, 64]⟩
abbrev S5000x128 : Shape := ⟨2, ![5000, 128]⟩
abbrev S5000x64 : Shape := ⟨2, ![5000, 64]⟩
abbrev S1700000x64 : Shape := ⟨2, ![1700000, 64]⟩
abbrev S1x64 : Shape := ⟨2, ![1, 64]⟩
abbrev S100000x10 : Shape := ⟨2, ![100000, 10]⟩
abbrev S5000x10 : Shape := ⟨2, ![5000, 10]⟩
abbrev S1700000x10 : Shape := ⟨2, ![1700000, 10]⟩
abbrev S1x10 : Shape := ⟨2, ![1, 10]⟩
abbrev S5000 : Shape := ⟨1, ![5000]⟩
abbrev S5000x1 : Shape := ⟨2, ![5000, 1]⟩

abbrev nBuf : Space → Nat
  | .hbm => 87
  | .vmem => 20
  | .smem => 0
  | _ => 0

abbrev bufTy : (tb : Table) → Fin (tcTables nBuf tb) → BufTy
  | .hbm, ⟨0, _⟩ => ⟨S100000x128, .f32⟩
  | .hbm, ⟨1, _⟩ => ⟨S2x1600000, .i32⟩
  | .hbm, ⟨2, _⟩ => ⟨S128x64, .f32⟩
  | .hbm, ⟨3, _⟩ => ⟨S64, .f32⟩
  | .hbm, ⟨4, _⟩ => ⟨S64x10, .f32⟩
  | .hbm, ⟨5, _⟩ => ⟨S10, .f32⟩
  | .hbm, ⟨6, _⟩ => ⟨S100000, .i32⟩
  | .hbm, ⟨7, _⟩ => ⟨S1x1600000, .i32⟩
  | .hbm, ⟨8, _⟩ => ⟨S1600000, .i32⟩
  | .hbm, ⟨9, _⟩ => ⟨S1700000, .i32⟩
  | .hbm, ⟨10, _⟩ => ⟨S1x1600000, .i32⟩
  | .hbm, ⟨11, _⟩ => ⟨S1600000, .i32⟩
  | .hbm, ⟨12, _⟩ => ⟨S1700000, .i32⟩
  | .hbm, ⟨13, _⟩ => ⟨S_, .f32⟩
  | .hbm, ⟨14, _⟩ => ⟨S1700000, .f32⟩
  | .hbm, ⟨15, _⟩ => ⟨S_, .f32⟩
  | .hbm, ⟨16, _⟩ => ⟨S100000, .f32⟩
  | .hbm, ⟨17, _⟩ => ⟨S1700000x1, .i32⟩
  | .hbm, ⟨18, _⟩ => ⟨S100000, .f32⟩
  | .hbm, ⟨19, _⟩ => ⟨S_, .f32⟩
  | .hbm, ⟨20, _⟩ => ⟨S100000, .f32⟩
  | .hbm, ⟨21, _⟩ => ⟨S100000, .i1⟩
  | .hbm, ⟨22, _⟩ => ⟨S_, .f32⟩
  | .hbm, ⟨23, _⟩ => ⟨S100000, .f32⟩
  | .hbm, ⟨24, _⟩ => ⟨S100000, .f32⟩
  | .hbm, ⟨25, _⟩ => ⟨S100000, .f32⟩
  | .hbm, ⟨26, _⟩ => ⟨S_, .f32⟩
  | .hbm, ⟨27, _⟩ => ⟨S_, .f32⟩
  | .hbm, ⟨28, _⟩ => ⟨S100000, .f32⟩
  | .hbm, ⟨29, _⟩ => ⟨S100000, .f32⟩
  | .hbm, ⟨30, _⟩ => ⟨S_, .i32⟩
  | .hbm, ⟨31, _⟩ => ⟨S1700000, .i32⟩
  | .hbm, ⟨32, _⟩ => ⟨S1700000, .i1⟩
  | .hbm, ⟨33, _⟩ => ⟨S_, .i32⟩
  | .hbm, ⟨34, _⟩ => ⟨S1700000, .i32⟩
  | .hbm, ⟨35, _⟩ => ⟨S1700000, .i32⟩
  | .hbm, ⟨36, _⟩ => ⟨S1700000, .i32⟩
  | .hbm, ⟨37, _⟩ => ⟨S1700000x1, .i32⟩
  | .hbm, ⟨38, _⟩ => ⟨S1700000, .f32⟩
  | .hbm, ⟨39, _⟩ => ⟨S_, .i32⟩
  | .hbm, ⟨40, _⟩ => ⟨S1700000, .i32⟩
  | .hbm, ⟨41, _⟩ => ⟨S1700000, .i1⟩
  | .hbm, ⟨42, _⟩ => ⟨S_, .i32⟩
  | .hbm, ⟨43, _⟩ => ⟨S1700000, .i32⟩
  | .hbm, ⟨44, _⟩ => ⟨S1700000, .i32⟩
  | .hbm, ⟨45, _⟩ => ⟨S1700000, .i32⟩
  | .hbm, ⟨46, _⟩ => ⟨S1700000x1, .i32⟩
  | .hbm, ⟨47, _⟩ => ⟨S1700000, .f32⟩
  | .hbm, ⟨48, _⟩ => ⟨S1700000, .f32⟩
  | .hbm, ⟨49, _⟩ => ⟨S100000x64, .f32⟩
  | .hbm, ⟨50, _⟩ => ⟨S_, .i32⟩
  | .hbm, ⟨51, _⟩ => ⟨S1700000, .i32⟩
  | .hbm, ⟨52, _⟩ => ⟨S1700000, .i1⟩
  | .hbm, ⟨53, _⟩ => ⟨S_, .i32⟩
  | .hbm, ⟨54, _⟩ => ⟨S1700000, .i32⟩
  | .hbm, ⟨55, _⟩ => ⟨S1700000, .i32⟩
  | .hbm, ⟨56, _⟩ => ⟨S1700000, .i32⟩
  | .hbm, ⟨57, _⟩ => ⟨S1700000x1, .i32⟩
  | .hbm, ⟨58, _⟩ => ⟨S1700000x64, .f32⟩
  | .hbm, ⟨59, _⟩ => ⟨S1700000x1, .f32⟩
  | .hbm, ⟨60, _⟩ => ⟨S1700000x64, .f32⟩
  | .hbm, ⟨61, _⟩ => ⟨S1700000x64, .f32⟩
  | .hbm, ⟨62, _⟩ => ⟨S_, .f32⟩
  | .hbm, ⟨63, _⟩ => ⟨S100000x64, .f32⟩
  | .hbm, ⟨64, _⟩ => ⟨S1700000x1, .i32⟩
  | .hbm, ⟨65, _⟩ => ⟨S100000x64, .f32⟩
  | .hbm, ⟨66, _⟩ => ⟨S1x64, .f32⟩
  | .hbm, ⟨67, _⟩ => ⟨S100000x64, .f32⟩
  | .hbm, ⟨68, _⟩ => ⟨S100000x10, .f32⟩
  | .hbm, ⟨69, _⟩ => ⟨S_, .i32⟩
  | .hbm, ⟨70, _⟩ => ⟨S1700000, .i32⟩
  | .hbm, ⟨71, _⟩ => ⟨S1700000, .i1⟩
  | .hbm, ⟨72, _⟩ => ⟨S_, .i32⟩
  | .hbm, ⟨73, _⟩ => ⟨S1700000, .i32⟩
  | .hbm, ⟨74, _⟩ => ⟨S1700000, .i32⟩
  | .hbm, ⟨75, _⟩ => ⟨S1700000, .i32⟩
  | .hbm, ⟨76, _⟩ => ⟨S1700000x1, .i32⟩
  | .hbm, ⟨77, _⟩ => ⟨S1700000x10, .f32⟩
  | .hbm, ⟨78, _⟩ => ⟨S1700000x1, .f32⟩
  | .hbm, ⟨79, _⟩ => ⟨S1700000x10, .f32⟩
  | .hbm, ⟨80, _⟩ => ⟨S1700000x10, .f32⟩
  | .hbm, ⟨81, _⟩ => ⟨S_, .f32⟩
  | .hbm, ⟨82, _⟩ => ⟨S100000x10, .f32⟩
  | .hbm, ⟨83, _⟩ => ⟨S1700000x1, .i32⟩
  | .hbm, ⟨84, _⟩ => ⟨S100000x10, .f32⟩
  | .hbm, ⟨85, _⟩ => ⟨S1x10, .f32⟩
  | .hbm, ⟨86, _⟩ => ⟨S100000x10, .f32⟩
  | .local _ .vmem, ⟨0, _⟩ => ⟨S5000x128, .f32⟩
  | .local _ .vmem, ⟨1, _⟩ => ⟨S5000x128, .f32⟩
  | .local _ .vmem, ⟨2, _⟩ => ⟨S128x64, .f32⟩
  | .local _ .vmem, ⟨3, _⟩ => ⟨S5000x64, .f32⟩
  | .local _ .vmem, ⟨4, _⟩ => ⟨S5000x64, .f32⟩
  | .local _ .vmem, ⟨5, _⟩ => ⟨S5000x64, .f32⟩
  | .local _ .vmem, ⟨6, _⟩ => ⟨S5000x64, .f32⟩
  | .local _ .vmem, ⟨7, _⟩ => ⟨S1x64, .f32⟩
  | .local _ .vmem, ⟨8, _⟩ => ⟨S5000x64, .f32⟩
  | .local _ .vmem, ⟨9, _⟩ => ⟨S5000x64, .f32⟩
  | .local _ .vmem, ⟨10, _⟩ => ⟨S5000x64, .f32⟩
  | .local _ .vmem, ⟨11, _⟩ => ⟨S5000x64, .f32⟩
  | .local _ .vmem, ⟨12, _⟩ => ⟨S64x10, .f32⟩
  | .local _ .vmem, ⟨13, _⟩ => ⟨S5000x10, .f32⟩
  | .local _ .vmem, ⟨14, _⟩ => ⟨S5000x10, .f32⟩
  | .local _ .vmem, ⟨15, _⟩ => ⟨S5000x10, .f32⟩
  | .local _ .vmem, ⟨16, _⟩ => ⟨S5000x10, .f32⟩
  | .local _ .vmem, ⟨17, _⟩ => ⟨S1x10, .f32⟩
  | .local _ .vmem, ⟨18, _⟩ => ⟨S5000x10, .f32⟩
  | .local _ .vmem, ⟨19, _⟩ => ⟨S5000x10, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst : Ref sig .tc := ⟨.hbm, 13, rfl⟩
abbrev main_v7 : Ref sig .tc := ⟨.hbm, 14, rfl⟩
abbrev main_cst_0 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_1 : Ref sig .tc := ⟨.hbm, 19, rfl⟩
abbrev main_v11 : Ref sig .tc := ⟨.hbm, 20, rfl⟩
abbrev main_v12 : Ref sig .tc := ⟨.hbm, 21, rfl⟩
abbrev main_cst_2 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_3 : Ref sig .tc := ⟨.hbm, 26, rfl⟩
abbrev main_call0_v0 : Ref sig .tc := ⟨.hbm, 27, rfl⟩
abbrev main_call0_v1 : Ref sig .tc := ⟨.hbm, 28, rfl⟩
abbrev main_v16 : Ref sig .tc := ⟨.hbm, 29, rfl⟩
abbrev main_c : Ref sig .tc := ⟨.hbm, 30, rfl⟩
abbrev main_v17 : Ref sig .tc := ⟨.hbm, 31, rfl⟩
abbrev main_v18 : Ref sig .tc := ⟨.hbm, 32, rfl⟩
abbrev main_c_4 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_c_5 : Ref sig .tc := ⟨.hbm, 39, rfl⟩
abbrev main_v24 : Ref sig .tc := ⟨.hbm, 40, rfl⟩
abbrev main_v25 : Ref sig .tc := ⟨.hbm, 41, rfl⟩
abbrev main_c_6 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_c_7 : Ref sig .tc := ⟨.hbm, 50, rfl⟩
abbrev main_v33 : Ref sig .tc := ⟨.hbm, 51, rfl⟩
abbrev main_v34 : Ref sig .tc := ⟨.hbm, 52, rfl⟩
abbrev main_c_8 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_cst_9 : Ref sig .tc := ⟨.hbm, 62, rfl⟩
abbrev main_v43 : Ref sig .tc := ⟨.hbm, 63, rfl⟩
abbrev main_v44 : Ref sig .tc := ⟨.hbm, 64, rfl⟩
abbrev main_v45 : Ref sig .tc := ⟨.hbm, 65, rfl⟩
abbrev main_v46 : Ref sig .tc := ⟨.hbm, 66, rfl⟩
abbrev main_v47 : Ref sig .tc := ⟨.hbm, 67, rfl⟩
abbrev main_v48 : Ref sig .tc := ⟨.hbm, 68, rfl⟩
abbrev main_c_10 : Ref sig .tc := ⟨.hbm, 69, rfl⟩
abbrev main_v49 : Ref sig .tc := ⟨.hbm, 70, rfl⟩
abbrev main_v50 : Ref sig .tc := ⟨.hbm, 71, rfl⟩
abbrev main_c_11 : Ref sig .tc := ⟨.hbm, 72, rfl⟩
abbrev main_v51 : Ref sig .tc := ⟨.hbm, 73, rfl⟩
abbrev main_v52 : Ref sig .tc := ⟨.hbm, 74, rfl⟩
abbrev main_v53 : Ref sig .tc := ⟨.hbm, 75, rfl⟩
abbrev main_v54 : Ref sig .tc := ⟨.hbm, 76, rfl⟩
abbrev main_v55 : Ref sig .tc := ⟨.hbm, 77, rfl⟩
abbrev main_v56 : Ref sig .tc := ⟨.hbm, 78, rfl⟩
abbrev main_v57 : Ref sig .tc := ⟨.hbm, 79, rfl⟩
abbrev main_v58 : Ref sig .tc := ⟨.hbm, 80, rfl⟩
abbrev main_cst_12 : Ref sig .tc := ⟨.hbm, 81, rfl⟩
abbrev main_v59 : Ref sig .tc := ⟨.hbm, 82, rfl⟩
abbrev main_v60 : Ref sig .tc := ⟨.hbm, 83, rfl⟩
abbrev main_v61 : Ref sig .tc := ⟨.hbm, 84, rfl⟩
abbrev main_v62 : Ref sig .tc := ⟨.hbm, 85, rfl⟩
abbrev main_v63 : Ref sig .tc := ⟨.hbm, 86, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg2_1 : Ref sig .tc := ⟨.vmem, 9, rfl⟩
abbrev cc2_stg0_0 : Ref sig .tc := ⟨.vmem, 10, rfl⟩
abbrev cc2_stg0_1 : Ref sig .tc := ⟨.vmem, 11, rfl⟩
abbrev cc2_stg1_0 : Ref sig .tc := ⟨.vmem, 12, rfl⟩
abbrev cc2_stg2_0 : Ref sig .tc := ⟨.vmem, 13, rfl⟩
abbrev cc2_stg2_1 : Ref sig .tc := ⟨.vmem, 14, rfl⟩
abbrev cc3_stg0_0 : Ref sig .tc := ⟨.vmem, 15, rfl⟩
abbrev cc3_stg0_1 : Ref sig .tc := ⟨.vmem, 16, rfl⟩
abbrev cc3_stg1_0 : Ref sig .tc := ⟨.vmem, 17, rfl⟩
abbrev cc3_stg2_0 : Ref sig .tc := ⟨.vmem, 18, rfl⟩
abbrev cc3_stg2_1 : Ref sig .tc := ⟨.vmem, 19, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem2_1 : DmaSem sig := 9
abbrev cc2_sem0_0 : DmaSem sig := 10
abbrev cc2_sem0_1 : DmaSem sig := 11
abbrev cc2_sem1_0 : DmaSem sig := 12
abbrev cc2_sem2_0 : DmaSem sig := 13
abbrev cc2_sem2_1 : DmaSem sig := 14
abbrev cc3_sem0_0 : DmaSem sig := 15
abbrev cc3_sem0_1 : DmaSem sig := 16
abbrev cc3_sem1_0 : DmaSem sig := 17
abbrev cc3_sem2_0 : DmaSem sig := 18
abbrev cc3_sem2_1 : DmaSem sig := 19

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S5000x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![20], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x64 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S5000x64 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev grid2 : Pipeline.Grid := ⟨1, ![20], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x64 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S64x10 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S5000x10 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev grid3 : Pipeline.Grid := ⟨1, ![20], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S5000x10 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S1x10 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 2 → Memref sig .tc .vmem S5000x10 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

class Facts₀ : Prop where
  slices_S2x1600000_S1x1600000_0_0 : S2x1600000.Slices ![0, 0] S1x1600000
  shapeCasts_S1x1600000_S1600000 : S1x1600000.ShapeCasts S1600000
  concatenates_S1600000_S100000_S1700000_d0 : Shape.Concatenates [S1600000, S100000] S1700000 0
  slices_S2x1600000_S1x1600000_1_0 : S2x1600000.Slices ![1, 0] S1x1600000
  bcast_S_S1700000 : S_.BroadcastsInDim S1700000 (![] : Fin 0 → Fin S1700000.rank)
  bcast_S_S100000 : S_.BroadcastsInDim S100000 (![] : Fin 0 → Fin S100000.rank)
  bcast_S1700000_S1700000x1_0 : S1700000.BroadcastsInDim S1700000x1 (![0] : Fin 1 → Fin S1700000x1.rank)
  inb_S5000x128_S5000x128_0_0 : ∀ a, (![0, 0] : Fin 2 → Nat) a + S5000x128.size a ≤ S5000x128.size a
  h_S5000x128 : 0 < S5000x128.numel
  bitsLt_bf16_f32 : FTy.bits .bf16 < FTy.bits .f32
  inb_S128x64_S128x64_0_0 : ∀ a, (![0, 0] : Fin 2 → Nat) a + S128x64.size a ≤ S128x64.size a
  h_S128x64 : 0 < S128x64.numel
  inb_S5000x64_S5000x64_0_0 : ∀ a, (![0, 0] : Fin 2 → Nat) a + S5000x64.size a ≤ S5000x64.size a
  h_S5000x64 : 0 < S5000x64.numel
  bcast_S1700000x1_S1700000x64_0_1 : S1700000x1.BroadcastsInDim S1700000x64 (![0, 1] : Fin 2 → Fin S1700000x64.rank)
  bcast_S_S100000x64 : S_.BroadcastsInDim S100000x64 (![] : Fin 0 → Fin S100000x64.rank)
  shapeCasts_S64_S1x64 : S64.ShapeCasts S1x64
  shapeCasts_S5000x64_S5000x64 : S5000x64.ShapeCasts S5000x64
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S5000x64 : S1x64.Broadcasts S5000x64
  inb_S64x10_S64x10_0_0 : ∀ a, (![0, 0] : Fin 2 → Nat) a + S64x10.size a ≤ S64x10.size a
  h_S64x10 : 0 < S64x10.numel
  inb_S5000x10_S5000x10_0_0 : ∀ a, (![0, 0] : Fin 2 → Nat) a + S5000x10.size a ≤ S5000x10.size a
  h_S5000x10 : 0 < S5000x10.numel
  bcast_S1700000x1_S1700000x10_0_1 : S1700000x1.BroadcastsInDim S1700000x10 (![0, 1] : Fin 2 → Fin S1700000x10.rank)
  bcast_S_S100000x10 : S_.BroadcastsInDim S100000x10 (![] : Fin 0 → Fin S100000x10.rank)
  shapeCasts_S10_S1x10 : S10.ShapeCasts S1x10
  shapeCasts_S5000x10_S5000x10 : S5000x10.ShapeCasts S5000x10
  inb_S1x10_S1x10_0_0 : ∀ a, (![0, 0] : Fin 2 → Nat) a + S1x10.size a ≤ S1x10.size a
  h_S1x10 : 0 < S1x10.numel
  shapeCasts_S1x10_S1x10 : S1x10.ShapeCasts S1x10
  broadcasts_S1x10_S5000x10 : S1x10.Broadcasts S5000x10
  reduces_S5000x10_S5000 : S5000x10.Reduces [1] S5000
  shapeCasts_S5000_S5000x1 : S5000.ShapeCasts S5000x1
  broadcasts_S5000x1_S5000x10 : S5000x1.Broadcasts S5000x10
  scatter_S100000_S1700000x1_S1700000_n_0_0_1_wf : ScatterDims.WF S100000 S1700000x1 S1700000 [] [0] [0] 1
  gather_S100000_S1700000x1_S1700000_n_0_n_n_0_1_1_wf : GatherDims.WF S100000 S1700000x1 S1700000 [] [0] [] [0] [] 1 ![1]
  dot_S5000x128_S128x64_S5000x64_1_0_0_1_n_n_wf : DotDims.WF S5000x128 S128x64 S5000x64 [1] [0] [0] [1] [] []
  gather_S100000x64_S1700000x1_S1700000x64_1_0_n_n_0_1_164_wf : GatherDims.WF S100000x64 S1700000x1 S1700000x64 [1] [0] [] [0] [] 1 ![1, 64]
  scatter_S100000x64_S1700000x1_S1700000x64_1_0_0_1_wf : ScatterDims.WF S100000x64 S1700000x1 S1700000x64 [1] [0] [0] 1
  dot_S5000x64_S64x10_S5000x10_1_0_0_1_n_n_wf : DotDims.WF S5000x64 S64x10 S5000x10 [1] [0] [0] [1] [] []
  gather_S100000x10_S1700000x1_S1700000x10_1_0_n_n_0_1_110_wf : GatherDims.WF S100000x10 S1700000x1 S1700000x10 [1] [0] [] [0] [] 1 ![1, 10]
  scatter_S100000x10_S1700000x1_S1700000x10_1_0_0_1_wf : ScatterDims.WF S100000x10 S1700000x1 S1700000x10 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S100000x128.size a
  hwx0_0 : ∀ i : grid0.Coords, EltTy.bits .f32 = 32 ∨ (Rect.block (s := S100000x128) S5000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x64.size a ≤ S128x64.size a
  hwx0_1 : ∀ i : grid0.Coords, EltTy.bits .f32 = 32 ∨ (Rect.block (s := S128x64) S128x64.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x64.size a ≤ S100000x64.size a
  hwx0_2 : ∀ i : grid0.Coords, EltTy.bits .f32 = 32 ∨ (Rect.block (s := S100000x64) S5000x64.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x64.size a ≤ S100000x64.size a
  hwx1_0 : ∀ i : grid1.Coords, EltTy.bits .f32 = 32 ∨ (Rect.block (s := S100000x64) S5000x64.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x64.size a ≤ S1x64.size a
  hwx1_1 : ∀ i : grid1.Coords, EltTy.bits .f32 = 32 ∨ (Rect.block (s := S1x64) S1x64.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S5000x64.size a ≤ S100000x64.size a
  hwx1_2 : ∀ i : grid1.Coords, EltTy.bits .f32 = 32 ∨ (Rect.block (s := S100000x64) S5000x64.size (cc1_transform_2 i) (hinb1_2 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x64.size a ≤ S100000x64.size a
  hwx2_0 : ∀ i : grid2.Coords, EltTy.bits .f32 = 32 ∨ (Rect.block (s := S100000x64) S5000x64.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S64x10.size a ≤ S64x10.size a
  hwx2_1 : ∀ i : grid2.Coords, EltTy.bits .f32 = 32 ∨ (Rect.block (s := S64x10) S64x10.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S5000x10.size a ≤ S100000x10.size a
  hwx2_2 : ∀ i : grid2.Coords, EltTy.bits .f32 = 32 ∨ (Rect.block (s := S100000x10) S5000x10.size (cc2_transform_2 i) (hinb2_2 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S5000x10.size a ≤ S100000x10.size a
  hwx3_0 : ∀ i : grid3.Coords, EltTy.bits .f32 = 32 ∨ (Rect.block (s := S100000x10) S5000x10.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S1x10.size a ≤ S1x10.size a
  hwx3_1 : ∀ i : grid3.Coords, EltTy.bits .f32 = 32 ∨ (Rect.block (s := S1x10) S1x10.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S5000x10.size a ≤ S100000x10.size a
  hwx3_2 : ∀ i : grid3.Coords, EltTy.bits .f32 = 32 ∨ (Rect.block (s := S100000x10) S5000x10.size (cc3_transform_2 i) (hinb3_2 i)).WholeWords (EltTy.packing .f32)

variable [Facts₀]

def scatter_S100000_S1700000x1_S1700000_n_0_0_1 : ScatterDims S100000 S1700000x1 S1700000 where
  updateWindowDims := []
  insertedWindowDims := [0]
  scatterDimsToOperandDims := [0]
  indexVectorDim := 1
  wf := scatter_S100000_S1700000x1_S1700000_n_0_0_1_wf
def gather_S100000_S1700000x1_S1700000_n_0_n_n_0_1_1 : GatherDims S100000 S1700000x1 S1700000 where
  offsetDims := []
  collapsedSliceDims := [0]
  operandBatchingDims := []
  startIndicesBatchingDims := []
  startIndexMap := [0]
  indexVectorDim := 1
  sliceSizes := ![1]
  wf := gather_S100000_S1700000x1_S1700000_n_0_n_n_0_1_1_wf
def dot_S5000x128_S128x64_S5000x64_1_0_0_1_n_n : DotDims S5000x128 S128x64 S5000x64 where
  lhsContracting := [1]
  rhsContracting := [0]
  lhsNonContracting := [0]
  rhsNonContracting := [1]
  lhsBatch := []
  rhsBatch := []
  wf := dot_S5000x128_S128x64_S5000x64_1_0_0_1_n_n_wf
def gather_S100000x64_S1700000x1_S1700000x64_1_0_n_n_0_1_164 : GatherDims S100000x64 S1700000x1 S1700000x64 where
  offsetDims := [1]
  collapsedSliceDims := [0]
  operandBatchingDims := []
  startIndicesBatchingDims := []
  startIndexMap := [0]
  indexVectorDim := 1
  sliceSizes := ![1, 64]
  wf := gather_S100000x64_S1700000x1_S1700000x64_1_0_n_n_0_1_164_wf
def scatter_S100000x64_S1700000x1_S1700000x64_1_0_0_1 : ScatterDims S100000x64 S1700000x1 S1700000x64 where
  updateWindowDims := [1]
  insertedWindowDims := [0]
  scatterDimsToOperandDims := [0]
  indexVectorDim := 1
  wf := scatter_S100000x64_S1700000x1_S1700000x64_1_0_0_1_wf
def dot_S5000x64_S64x10_S5000x10_1_0_0_1_n_n : DotDims S5000x64 S64x10 S5000x10 where
  lhsContracting := [1]
  rhsContracting := [0]
  lhsNonContracting := [0]
  rhsNonContracting := [1]
  lhsBatch := []
  rhsBatch := []
  wf := dot_S5000x64_S64x10_S5000x10_1_0_0_1_n_n_wf
def gather_S100000x10_S1700000x1_S1700000x10_1_0_n_n_0_1_110 : GatherDims S100000x10 S1700000x1 S1700000x10 where
  offsetDims := [1]
  collapsedSliceDims := [0]
  operandBatchingDims := []
  startIndicesBatchingDims := []
  startIndexMap := [0]
  indexVectorDim := 1
  sliceSizes := ![1, 10]
  wf := gather_S100000x10_S1700000x1_S1700000x10_1_0_n_n_0_1_110_wf
def scatter_S100000x10_S1700000x1_S1700000x10_1_0_0_1 : ScatterDims S100000x10 S1700000x1 S1700000x10 where
  updateWindowDims := [1]
  insertedWindowDims := [0]
  scatterDimsToOperandDims := [0]
  indexVectorDim := 1
  wf := scatter_S100000x10_S1700000x1_S1700000x10_1_0_0_1_wf

abbrev win0_0 : Pipeline.Window sig grid0 :=
  Pipeline.Window.ofSpec (Memref.whole main_arg0) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S128x64.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v32) S5000x64.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v45) S5000x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v46) S1x64.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v47) S5000x64.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev win2_0 : Pipeline.Window sig grid2 :=
  Pipeline.Window.ofSpec (Memref.whole main_v47) S5000x64.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg4) S64x10.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v48) S5000x10.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

abbrev win3_0 : Pipeline.Window sig grid3 :=
  Pipeline.Window.ofSpec (Memref.whole main_v61) S5000x10.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v62) S1x10.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v63) S5000x10.size cc3_transform_2 reads3_2 true false 2 stage3_2 sem3_2
    hrank3 hreads3_2 hinb3_2 nbuf3_2 (Memref.isWhole_whole _) hwx3_2 hstage3_2

abbrev win3 : Fin 3 → Pipeline.Window sig grid3 := fun | 0 => win3_0 | 1 => win3_1 | 2 => win3_2 | ⟨_ + 3, h⟩ => absurd h (Nat.not_lt.2 (Nat.le_add_left _ _))
abbrev spec3 : Fin 3 → Pipeline.WinSpec sig grid3.rank := fun w => (win3 w).toWinSpec

class Facts : Prop extends Facts₀ where

variable [Facts]
-- ==== ReferenceIdeal.lean ====
abbrev S100000x128 : Shape := ⟨2, ![100000, 128]⟩
abbrev S2x1600000 : Shape := ⟨2, ![2, 1600000]⟩
abbrev S128x64 : Shape := ⟨2, ![128, 64]⟩
abbrev S64 : Shape := ⟨1, ![64]⟩
abbrev S64x10 : Shape := ⟨2, ![64, 10]⟩
abbrev S10 : Shape := ⟨1, ![10]⟩
abbrev S100000 : Shape := ⟨1, ![100000]⟩
abbrev S1x1600000 : Shape := ⟨2, ![1, 1600000]⟩
abbrev S1600000 : Shape := ⟨1, ![1600000]⟩
abbrev S1700000 : Shape := ⟨1, ![1700000]⟩
abbrev S_ : Shape := ⟨0, ![]⟩
abbrev S1700000x1 : Shape := ⟨2, ![1700000, 1]⟩
abbrev S100000x64 : Shape := ⟨2, ![100000, 64]⟩
abbrev S1700000x64 : Shape := ⟨2, ![1700000, 64]⟩
abbrev S1x64 : Shape := ⟨2, ![1, 64]⟩
abbrev S100000x10 : Shape := ⟨2, ![100000, 10]⟩
abbrev S1700000x10 : Shape := ⟨2, ![1700000, 10]⟩
abbrev S1x10 : Shape := ⟨2, ![1, 10]⟩
abbrev S100000x1 : Shape := ⟨2, ![100000, 1]⟩

abbrev nBuf : Space → Nat
  | .hbm => 107
  | .vmem => 0
  | .smem => 0
  | _ => 0

abbrev bufTy : (tb : Table) → Fin (tcTables nBuf tb) → BufTy
  | .hbm, ⟨0, _⟩ => ⟨S100000x128, .f32⟩
  | .hbm, ⟨1, _⟩ => ⟨S2x1600000, .i32⟩
  | .hbm, ⟨2, _⟩ => ⟨S128x64, .f32⟩
  | .hbm, ⟨3, _⟩ => ⟨S64, .f32⟩
  | .hbm, ⟨4, _⟩ => ⟨S64x10, .f32⟩
  | .hbm, ⟨5, _⟩ => ⟨S10, .f32⟩
  | .hbm, ⟨6, _⟩ => ⟨S100000, .i32⟩
  | .hbm, ⟨7, _⟩ => ⟨S1x1600000, .i32⟩
  | .hbm, ⟨8, _⟩ => ⟨S1600000, .i32⟩
  | .hbm, ⟨9, _⟩ => ⟨S1700000, .i32⟩
  | .hbm, ⟨10, _⟩ => ⟨S1x1600000, .i32⟩
  | .hbm, ⟨11, _⟩ => ⟨S1600000, .i32⟩
  | .hbm, ⟨12, _⟩ => ⟨S1700000, .i32⟩
  | .hbm, ⟨13, _⟩ => ⟨S_, .f32⟩
  | .hbm, ⟨14, _⟩ => ⟨S1700000, .f32⟩
  | .hbm, ⟨15, _⟩ => ⟨S_, .f32⟩
  | .hbm, ⟨16, _⟩ => ⟨S100000, .f32⟩
  | .hbm, ⟨17, _⟩ => ⟨S1700000x1, .i32⟩
  | .hbm, ⟨18, _⟩ => ⟨S100000, .f32⟩
  | .hbm, ⟨19, _⟩ => ⟨S_, .f32⟩
  | .hbm, ⟨20, _⟩ => ⟨S100000, .f32⟩
  | .hbm, ⟨21, _⟩ => ⟨S100000, .i1⟩
  | .hbm, ⟨22, _⟩ => ⟨S_, .f32⟩
  | .hbm, ⟨23, _⟩ => ⟨S100000, .f32⟩
  | .hbm, ⟨24, _⟩ => ⟨S100000, .f32⟩
  | .hbm, ⟨25, _⟩ => ⟨S100000, .f32⟩
  | .hbm, ⟨26, _⟩ => ⟨S_, .f32⟩
  | .hbm, ⟨27, _⟩ => ⟨S_, .f32⟩
  | .hbm, ⟨28, _⟩ => ⟨S100000, .f32⟩
  | .hbm, ⟨29, _⟩ => ⟨S100000, .f32⟩
  | .hbm, ⟨30, _⟩ => ⟨S_, .i32⟩
  | .hbm, ⟨31, _⟩ => ⟨S1700000, .i32⟩
  | .hbm, ⟨32, _⟩ => ⟨S1700000, .i1⟩
  | .hbm, ⟨33, _⟩ => ⟨S_, .i32⟩
  | .hbm, ⟨34, _⟩ => ⟨S1700000, .i32⟩
  | .hbm, ⟨35, _⟩ => ⟨S1700000, .i32⟩
  | .hbm, ⟨36, _⟩ => ⟨S1700000, .i32⟩
  | .hbm, ⟨37, _⟩ => ⟨S1700000x1, .i32⟩
  | .hbm, ⟨38, _⟩ => ⟨S1700000, .f32⟩
  | .hbm, ⟨39, _⟩ => ⟨S_, .i32⟩
  | .hbm, ⟨40, _⟩ => ⟨S1700000, .i32⟩
  | .hbm, ⟨41, _⟩ => ⟨S1700000, .i1⟩
  | .hbm, ⟨42, _⟩ => ⟨S_, .i32⟩
  | .hbm, ⟨43, _⟩ => ⟨S1700000, .i32⟩
  | .hbm, ⟨44, _⟩ => ⟨S1700000, .i32⟩
  | .hbm, ⟨45, _⟩ => ⟨S1700000, .i32⟩
  | .hbm, ⟨46, _⟩ => ⟨S1700000x1, .i32⟩
  | .hbm, ⟨47, _⟩ => ⟨S1700000, .f32⟩
  | .hbm, ⟨48, _⟩ => ⟨S1700000, .f32⟩
  | .hbm, ⟨49, _⟩ => ⟨S100000x64, .f32⟩
  | .hbm, ⟨50, _⟩ => ⟨S_, .i32⟩
  | .hbm, ⟨51, _⟩ => ⟨S1700000, .i32⟩
  | .hbm, ⟨52, _⟩ => ⟨S1700000, .i1⟩
  | .hbm, ⟨53, _⟩ => ⟨S_, .i32⟩
  | .hbm, ⟨54, _⟩ => ⟨S1700000, .i32⟩
  | .hbm, ⟨55, _⟩ => ⟨S1700000, .i32⟩
  | .hbm, ⟨56, _⟩ => ⟨S1700000, .i32⟩
  | .hbm, ⟨57, _⟩ => ⟨S1700000x1, .i32⟩
  | .hbm, ⟨58, _⟩ => ⟨S1700000x64, .f32⟩
  | .hbm, ⟨59, _⟩ => ⟨S1700000x1, .f32⟩
  | .hbm, ⟨60, _⟩ => ⟨S1700000x64, .f32⟩
  | .hbm, ⟨61, _⟩ => ⟨S1700000x64, .f32⟩
  | .hbm, ⟨62, _⟩ => ⟨S_, .f32⟩
  | .hbm, ⟨63, _⟩ => ⟨S100000x64, .f32⟩
  | .hbm, ⟨64, _⟩ => ⟨S1700000x1, .i32⟩
  | .hbm, ⟨65, _⟩ => ⟨S100000x64, .f32⟩
  | .hbm, ⟨66, _⟩ => ⟨S1x64, .f32⟩
  | .hbm, ⟨67, _⟩ => ⟨S100000x64, .f32⟩
  | .hbm, ⟨68, _⟩ => ⟨S100000x64, .f32⟩
  | .hbm, ⟨69, _⟩ => ⟨S_, .f32⟩
  | .hbm, ⟨70, _⟩ => ⟨S100000x64, .f32⟩
  | .hbm, ⟨71, _⟩ => ⟨S100000x64, .f32⟩
  | .hbm, ⟨72, _⟩ => ⟨S100000x10, .f32⟩
  | .hbm, ⟨73, _⟩ => ⟨S_, .i32⟩
  | .hbm, ⟨74, _⟩ => ⟨S1700000, .i32⟩
  | .hbm, ⟨75, _⟩ => ⟨S1700000, .i1⟩
  | .hbm, ⟨76, _⟩ => ⟨S_, .i32⟩
  | .hbm, ⟨77, _⟩ => ⟨S1700000, .i32⟩
  | .hbm, ⟨78, _⟩ => ⟨S1700000, .i32⟩
  | .hbm, ⟨79, _⟩ => ⟨S1700000, .i32⟩
  | .hbm, ⟨80, _⟩ => ⟨S1700000x1, .i32⟩
  | .hbm, ⟨81, _⟩ => ⟨S1700000x10, .f32⟩
  | .hbm, ⟨82, _⟩ => ⟨S1700000x1, .f32⟩
  | .hbm, ⟨83, _⟩ => ⟨S1700000x10, .f32⟩
  | .hbm, ⟨84, _⟩ => ⟨S1700000x10, .f32⟩
  | .hbm, ⟨85, _⟩ => ⟨S_, .f32⟩
  | .hbm, ⟨86, _⟩ => ⟨S100000x10, .f32⟩
  | .hbm, ⟨87, _⟩ => ⟨S1700000x1, .i32⟩
  | .hbm, ⟨88, _⟩ => ⟨S100000x10, .f32⟩
  | .hbm, ⟨89, _⟩ => ⟨S1x10, .f32⟩
  | .hbm, ⟨90, _⟩ => ⟨S100000x10, .f32⟩
  | .hbm, ⟨91, _⟩ => ⟨S100000x10, .f32⟩
  | .hbm, ⟨92, _⟩ => ⟨S_, .f32⟩
  | .hbm, ⟨93, _⟩ => ⟨S100000, .f32⟩
  | .hbm, ⟨94, _⟩ => ⟨S_, .f32⟩
  | .hbm, ⟨95, _⟩ => ⟨S100000, .f32⟩
  | .hbm, ⟨96, _⟩ => ⟨S100000, .f32⟩
  | .hbm, ⟨97, _⟩ => ⟨S100000x1, .f32⟩
  | .hbm, ⟨98, _⟩ => ⟨S100000x10, .f32⟩
  | .hbm, ⟨99, _⟩ => ⟨S100000x10, .f32⟩
  | .hbm, ⟨100, _⟩ => ⟨S100000x10, .f32⟩
  | .hbm, ⟨101, _⟩ => ⟨S_, .f32⟩
  | .hbm, ⟨102, _⟩ => ⟨S100000, .f32⟩
  | .hbm, ⟨103, _⟩ => ⟨S100000x1, .f32⟩
  | .hbm, ⟨104, _⟩ => ⟨S100000x1, .f32⟩
  | .hbm, ⟨105, _⟩ => ⟨S100000x10, .f32⟩
  | .hbm, ⟨106, _⟩ => ⟨S100000x10, .f32⟩
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst : Ref sig .tc := ⟨.hbm, 13, rfl⟩
abbrev main_v7 : Ref sig .tc := ⟨.hbm, 14, rfl⟩
abbrev main_cst_0 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_1 : Ref sig .tc := ⟨.hbm, 19, rfl⟩
abbrev main_v11 : Ref sig .tc := ⟨.hbm, 20, rfl⟩
abbrev main_v12 : Ref sig .tc := ⟨.hbm, 21, rfl⟩
abbrev main_cst_2 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_3 : Ref sig .tc := ⟨.hbm, 26, rfl⟩
abbrev main_call0_v0 : Ref sig .tc := ⟨.hbm, 27, rfl⟩
abbrev main_call0_v1 : Ref sig .tc := ⟨.hbm, 28, rfl⟩
abbrev main_v16 : Ref sig .tc := ⟨.hbm, 29, rfl⟩
abbrev main_c : Ref sig .tc := ⟨.hbm, 30, rfl⟩
abbrev main_v17 : Ref sig .tc := ⟨.hbm, 31, rfl⟩
abbrev main_v18 : Ref sig .tc := ⟨.hbm, 32, rfl⟩
abbrev main_c_4 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_c_5 : Ref sig .tc := ⟨.hbm, 39, rfl⟩
abbrev main_v24 : Ref sig .tc := ⟨.hbm, 40, rfl⟩
abbrev main_v25 : Ref sig .tc := ⟨.hbm, 41, rfl⟩
abbrev main_c_6 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_c_7 : Ref sig .tc := ⟨.hbm, 50, rfl⟩
abbrev main_v33 : Ref sig .tc := ⟨.hbm, 51, rfl⟩
abbrev main_v34 : Ref sig .tc := ⟨.hbm, 52, rfl⟩
abbrev main_c_8 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_cst_9 : Ref sig .tc := ⟨.hbm, 62, rfl⟩
abbrev main_v43 : Ref sig .tc := ⟨.hbm, 63, rfl⟩
abbrev main_v44 : Ref sig .tc := ⟨.hbm, 64, rfl⟩
abbrev main_v45 : Ref sig .tc := ⟨.hbm, 65, rfl⟩
abbrev main_v46 : Ref sig .tc := ⟨.hbm, 66, rfl⟩
abbrev main_v47 : Ref sig .tc := ⟨.hbm, 67, rfl⟩
abbrev main_v48 : Ref sig .tc := ⟨.hbm, 68, rfl⟩
abbrev main_call1_cst : Ref sig .tc := ⟨.hbm, 69, rfl⟩
abbrev main_call1_v0 : Ref sig .tc := ⟨.hbm, 70, rfl⟩
abbrev main_v49 : Ref sig .tc := ⟨.hbm, 71, rfl⟩
abbrev main_v50 : Ref sig .tc := ⟨.hbm, 72, rfl⟩
abbrev main_c_10 : Ref sig .tc := ⟨.hbm, 73, rfl⟩
abbrev main_v51 : Ref sig .tc := ⟨.hbm, 74, rfl⟩
abbrev main_v52 : Ref sig .tc := ⟨.hbm, 75, rfl⟩
abbrev main_c_11 : Ref sig .tc := ⟨.hbm, 76, rfl⟩
abbrev main_v53 : Ref sig .tc := ⟨.hbm, 77, rfl⟩
abbrev main_v54 : Ref sig .tc := ⟨.hbm, 78, rfl⟩
abbrev main_v55 : Ref sig .tc := ⟨.hbm, 79, rfl⟩
abbrev main_v56 : Ref sig .tc := ⟨.hbm, 80, rfl⟩
abbrev main_v57 : Ref sig .tc := ⟨.hbm, 81, rfl⟩
abbrev main_v58 : Ref sig .tc := ⟨.hbm, 82, rfl⟩
abbrev main_v59 : Ref sig .tc := ⟨.hbm, 83, rfl⟩
abbrev main_v60 : Ref sig .tc := ⟨.hbm, 84, rfl⟩
abbrev main_cst_12 : Ref sig .tc := ⟨.hbm, 85, rfl⟩
abbrev main_v61 : Ref sig .tc := ⟨.hbm, 86, rfl⟩
abbrev main_v62 : Ref sig .tc := ⟨.hbm, 87, rfl⟩
abbrev main_v63 : Ref sig .tc := ⟨.hbm, 88, rfl⟩
abbrev main_v64 : Ref sig .tc := ⟨.hbm, 89, rfl⟩
abbrev main_v65 : Ref sig .tc := ⟨.hbm, 90, rfl⟩
abbrev main_v66 : Ref sig .tc := ⟨.hbm, 91, rfl⟩
abbrev main_call2_cst : Ref sig .tc := ⟨.hbm, 92, rfl⟩
abbrev main_call2_v0 : Ref sig .tc := ⟨.hbm, 93, rfl⟩
abbrev main_call2_cst_0 : Ref sig .tc := ⟨.hbm, 94, rfl⟩
abbrev main_call2_v1 : Ref sig .tc := ⟨.hbm, 95, rfl⟩
abbrev main_call2_v2 : Ref sig .tc := ⟨.hbm, 96, rfl⟩
abbrev main_call2_v3 : Ref sig .tc := ⟨.hbm, 97, rfl⟩
abbrev main_call2_v4 : Ref sig .tc := ⟨.hbm, 98, rfl⟩
abbrev main_call2_v5 : Ref sig .tc := ⟨.hbm, 99, rfl⟩
abbrev main_call2_v6 : Ref sig .tc := ⟨.hbm, 100, rfl⟩
abbrev main_call2_cst_1 : Ref sig .tc := ⟨.hbm, 101, rfl⟩
abbrev main_call2_v7 : Ref sig .tc := ⟨.hbm, 102, rfl⟩
abbrev main_call2_v8 : Ref sig .tc := ⟨.hbm, 103, rfl⟩
abbrev main_call2_v9 : Ref sig .tc := ⟨.hbm, 104, rfl⟩
abbrev main_call2_v10 : Ref sig .tc := ⟨.hbm, 105, rfl⟩
abbrev main_v67 : Ref sig .tc := ⟨.hbm, 106, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  concatenates_S1600000_S100000_S1700000_d0 : Shape.Concatenates [S1600000, S100000] S1700000 0
  slices_S2x1600000_S1x1600000_1_0 : S2x1600000.Slices ![1, 0] S1x1600000
  bcast_S_S1700000 : S_.BroadcastsInDim S1700000 (![] : Fin 0 → Fin S1700000.rank)
  bcast_S_S100000 : S_.BroadcastsInDim S100000 (![] : Fin 0 → Fin S100000.rank)
  bcast_S1700000_S1700000x1_0 : S1700000.BroadcastsInDim S1700000x1 (![0] : Fin 1 → Fin S1700000x1.rank)
  bcast_S1700000x1_S1700000x64_0_1 : S1700000x1.BroadcastsInDim S1700000x64 (![0, 1] : Fin 2 → Fin S1700000x64.rank)
  bcast_S_S100000x64 : S_.BroadcastsInDim S100000x64 (![] : Fin 0 → Fin S100000x64.rank)
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  bcast_S1700000x1_S1700000x10_0_1 : S1700000x1.BroadcastsInDim S1700000x10 (![0, 1] : Fin 2 → Fin S1700000x10.rank)
  bcast_S_S100000x10 : S_.BroadcastsInDim S100000x10 (![] : Fin 0 → Fin S100000x10.rank)
  bcast_S10_S1x10_1 : S10.BroadcastsInDim S1x10 (![1] : Fin 1 → Fin S1x10.rank)
  bcast_S1x10_S100000x10_0_1 : S1x10.BroadcastsInDim S100000x10 (![0, 1] : Fin 2 → Fin S100000x10.rank)
  reducesTo_S100000x10_S100000_d1 : S100000x10.ReducesTo [1] S100000
  h_S_ : 0 < S_.numel
  bcast_S100000_S100000x1_0 : S100000.BroadcastsInDim S100000x1 (![0] : Fin 1 → Fin S100000x1.rank)
  bcast_S100000x1_S100000x10_0_1 : S100000x1.BroadcastsInDim S100000x10 (![0, 1] : Fin 2 → Fin S100000x10.rank)
  scatter_S100000_S1700000x1_S1700000_n_0_0_1_wf : ScatterDims.WF S100000 S1700000x1 S1700000 [] [0] [0] 1
  gather_S100000_S1700000x1_S1700000_n_0_n_n_0_1_1_wf : GatherDims.WF S100000 S1700000x1 S1700000 [] [0] [] [0] [] 1 ![1]
  dot_S100000x128_S128x64_S100000x64_1_0_0_1_n_n_wf : DotDims.WF S100000x128 S128x64 S100000x64 [1] [0] [0] [1] [] []
  gather_S100000x64_S1700000x1_S1700000x64_1_0_n_n_0_1_164_wf : GatherDims.WF S100000x64 S1700000x1 S1700000x64 [1] [0] [] [0] [] 1 ![1, 64]
  scatter_S100000x64_S1700000x1_S1700000x64_1_0_0_1_wf : ScatterDims.WF S100000x64 S1700000x1 S1700000x64 [1] [0] [0] 1
  dot_S100000x64_S64x10_S100000x10_1_0_0_1_n_n_wf : DotDims.WF S100000x64 S64x10 S100000x10 [1] [0] [0] [1] [] []
  gather_S100000x10_S1700000x1_S1700000x10_1_0_n_n_0_1_110_wf : GatherDims.WF S100000x10 S1700000x1 S1700000x10 [1] [0] [] [0] [] 1 ![1, 10]
  scatter_S100000x10_S1700000x1_S1700000x10_1_0_0_1_wf : ScatterDims.WF S100000x10 S1700000x1 S1700000x10 [1] [0] [0] 1

variable [Facts₀]

def scatter_S100000_S1700000x1_S1700000_n_0_0_1 : ScatterDims S100000 S1700000x1 S1700000 where
  updateWindowDims := []
  insertedWindowDims := [0]
  scatterDimsToOperandDims := [0]
  indexVectorDim := 1
  wf := scatter_S100000_S1700000x1_S1700000_n_0_0_1_wf
def gather_S100000_S1700000x1_S1700000_n_0_n_n_0_1_1 : GatherDims S100000 S1700000x1 S1700000 where
  offsetDims := []
  collapsedSliceDims := [0]
  operandBatchingDims := []
  startIndicesBatchingDims := []
  startIndexMap := [0]
  indexVectorDim := 1
  sliceSizes := ![1]
  wf := gather_S100000_S1700000x1_S1700000_n_0_n_n_0_1_1_wf
def dot_S100000x128_S128x64_S100000x64_1_0_0_1_n_n : DotDims S100000x128 S128x64 S100000x64 where
  lhsContracting := [1]
  rhsContracting := [0]
  lhsNonContracting := [0]
  rhsNonContracting := [1]
  lhsBatch := []
  rhsBatch := []
  wf := dot_S100000x128_S128x64_S100000x64_1_0_0_1_n_n_wf
def gather_S100000x64_S1700000x1_S1700000x64_1_0_n_n_0_1_164 : GatherDims S100000x64 S1700000x1 S1700000x64 where
  offsetDims := [1]
  collapsedSliceDims := [0]
  operandBatchingDims := []
  startIndicesBatchingDims := []
  startIndexMap := [0]
  indexVectorDim := 1
  sliceSizes := ![1, 64]
  wf := gather_S100000x64_S1700000x1_S1700000x64_1_0_n_n_0_1_164_wf
def scatter_S100000x64_S1700000x1_S1700000x64_1_0_0_1 : ScatterDims S100000x64 S1700000x1 S1700000x64 where
  updateWindowDims := [1]
  insertedWindowDims := [0]
  scatterDimsToOperandDims := [0]
  indexVectorDim := 1
  wf := scatter_S100000x64_S1700000x1_S1700000x64_1_0_0_1_wf
def dot_S100000x64_S64x10_S100000x10_1_0_0_1_n_n : DotDims S100000x64 S64x10 S100000x10 where
  lhsContracting := [1]
  rhsContracting := [0]
  lhsNonContracting := [0]
  rhsNonContracting := [1]
  lhsBatch := []
  rhsBatch := []
  wf := dot_S100000x64_S64x10_S100000x10_1_0_0_1_n_n_wf
def gather_S100000x10_S1700000x1_S1700000x10_1_0_n_n_0_1_110 : GatherDims S100000x10 S1700000x1 S1700000x10 where
  offsetDims := [1]
  collapsedSliceDims := [0]
  operandBatchingDims := []
  startIndicesBatchingDims := []
  startIndexMap := [0]
  indexVectorDim := 1
  sliceSizes := ![1, 10]
  wf := gather_S100000x10_S1700000x1_S1700000x10_1_0_n_n_0_1_110_wf
def scatter_S100000x10_S1700000x1_S1700000x10_1_0_0_1 : ScatterDims S100000x10 S1700000x1 S1700000x10 where
  updateWindowDims := [1]
  insertedWindowDims := [0]
  scatterDimsToOperandDims := [0]
  indexVectorDim := 1
  wf := scatter_S100000x10_S1700000x1_S1700000x10_1_0_0_1_wf

class Facts : Prop extends Facts₀ where

variable [Facts]
-- ==== Proof.RefStages.lean ====
/-
  The reference's run, stage by stage: each operation of the reference program as a function of the
  argument arrays (the read-back of its run), for the bridge to set the kernel's values beside.
-/
import proofs.«125387_j2903397892892_1_alg».proof.Proof.RefRun
import proofs.«125387_j2903397892892_1_alg».proof.Proof.RefRead
-- ==== Proof.Spec.lean ====
/-
  The stages of the two-layer graph convolution that the kernel's regions and host stretches compute, each as ONE
  function of the arrays it reads, written with the reference's own host operations (at any float values), and the
  four dense ones read at an index over the extended reals:

  * `agg64 h e`, `agg10 h e` — the normalised neighbourhood sums both programs compute on the host from the edge list;
  * `dense1 x w`   — the node features times the first weight matrix: entry (n, j) is Σₖ x(n,k)·w(k,j), k < 128;
  * `biasRelu a b` — the aggregated hidden layer plus the bias row, clipped below at zero: max (a(n,j) + b(0,j)) 0;
  * `dense2 h w`   — the hidden layer times the second weight matrix: Σₖ h(n,k)·w(k,j), k < 64;
  * `biasLsm a b`  — the aggregated logits plus the bias row, then the row-wise log-softmax over the ten classes:
                     with z(n,j) = a(n,j) + b(0,j) and M(n) the largest z(n,·),
                     z(n,j) − M(n) − log Σₖ exp (z(n,k) − M(n)).

  The reference's stage functions are these applied to the stages before them (`stage_v32`, `stage_v45`, `stage_v49`,
  `stage_v50`, `stage_v63`, `stage_v67`: the definitions unfold to the same terms), so a kernel region that computes
  one of them on the same two arrays leaves the reference's stage.
-/
import proofs.«125387_j2903397892892_1_alg».proof.Proof.RefRead
import Mathlib.Data.Finset.Fold

set_option maxRecDepth 16384

noncomputable section

namespace Cert.Spec

open Cert.ReferenceIdeal Cert.ReferenceIdeal.Gen Cert.ReferenceIdeal.ReadFix Idealize.ShloMosaic

/-! ## The stages, at any float values -/

section Stages

variable {F : FTy → Type} [FloatOps F]

/-- The normalised neighbourhood sum of a 64-wide layer `h`: row dst(e) of the result gathers norm(e) · h(src(e), ·)
    over the edges e (self loops included), the edge ends and the weights being functions of the edge list `x1`. -/
def agg64 (h : (⟨S100000x64, .f32⟩ : BufTy).Contents (Elt F)) (x1 : (⟨S2x1600000, .i32⟩ : BufTy).Contents (Elt F)) : (⟨S100000x64, .f32⟩ : BufTy).Contents (Elt F) :=
  Host.scatterAdd scatter_S100000x64_S1700000x1_S1700000x64_1_0_0_1 (val_main_v43 (F := F)) (val_main_v44 (F := F) x1)
    (mulf (Host.gather gather_S100000x64_S1700000x1_S1700000x64_1_0_n_n_0_1_164 h (val_main_v38 (F := F) x1)) (val_main_v41 (F := F) x1))

theorem stage_v45 (x0 : (⟨S100000x128, .f32⟩ : BufTy).Contents (Elt F)) (x1 : (⟨S2x1600000, .i32⟩ : BufTy).Contents (Elt F)) (x2 : (⟨S128x64, .f32⟩ : BufTy).Contents (Elt F)) :
    val_main_v45 (F := F) x0 x1 x2 = agg64 (val_main_v32 (F := F) x0 x2) x1 := rfl

/-- The same sum of a 10-wide layer. -/
def agg10 (h : (⟨S100000x10, .f32⟩ : BufTy).Contents (Elt F)) (x1 : (⟨S2x1600000, .i32⟩ : BufTy).Contents (Elt F)) : (⟨S100000x10, .f32⟩ : BufTy).Contents (Elt F) :=
  Host.scatterAdd scatter_S100000x10_S1700000x1_S1700000x10_1_0_0_1 (val_main_v61 (F := F)) (val_main_v62 (F := F) x1)
    (mulf (Host.gather gather_S100000x10_S1700000x1_S1700000x10_1_0_n_n_0_1_110 h (val_main_v56 (F := F) x1)) (val_main_v59 (F := F) x1))

theorem stage_v63 (x0 : (⟨S100000x128, .f32⟩ : BufTy).Contents (Elt F)) (x1 : (⟨S2x1600000, .i32⟩ : BufTy).Contents (Elt F)) (x2 : (⟨S128x64, .f32⟩ : BufTy).Contents (Elt F)) (x3 : (⟨S64, .f32⟩ : BufTy).Contents (Elt F)) (x4 : (⟨S64x10, .f32⟩ : BufTy).Contents (Elt F)) :
    val_main_v63 (F := F) x0 x1 x2 x3 x4 = agg10 (val_main_v50 (F := F) x0 x1 x2 x3 x4) x1 := rfl

/-- The first dense layer. -/
def dense1 (x : (⟨S100000x128, .f32⟩ : BufTy).Contents (Elt F)) (w : (⟨S128x64, .f32⟩ : BufTy).Contents (Elt F)) : (⟨S100000x64, .f32⟩ : BufTy).Contents (Elt F) :=
  Host.dotGeneral dot_S100000x128_S128x64_S100000x64_1_0_0_1_n_n none x w

theorem stage_v32 (x0 : (⟨S100000x128, .f32⟩ : BufTy).Contents (Elt F)) (x2 : (⟨S128x64, .f32⟩ : BufTy).Contents (Elt F)) : val_main_v32 (F := F) x0 x2 = dense1 x0 x2 := rfl

/-- Bias and clipping of the hidden layer. -/
def biasRelu (a : (⟨S100000x64, .f32⟩ : BufTy).Contents (Elt F)) (b : (⟨S1x64, .f32⟩ : BufTy).Contents (Elt F)) : (⟨S100000x64, .f32⟩ : BufTy).Contents (Elt F) :=
  maximumf (addf a (broadcastInDim S100000x64 ![0, 1] bcast_S1x64_S100000x64_0_1 b)) (val_main_call1_v0 (F := F))

theorem stage_v49 (x0 : (⟨S100000x128, .f32⟩ : BufTy).Contents (Elt F)) (x1 : (⟨S2x1600000, .i32⟩ : BufTy).Contents (Elt F)) (x2 : (⟨S128x64, .f32⟩ : BufTy).Contents (Elt F)) (x3 : (⟨S64, .f32⟩ : BufTy).Contents (Elt F)) :
    val_main_v49 (F := F) x0 x1 x2 x3 = biasRelu (val_main_v45 (F := F) x0 x1 x2) (val_main_v46 (F := F) x3) := rfl

/-- The second dense layer. -/
def dense2 (h : (⟨S100000x64, .f32⟩ : BufTy).Contents (Elt F)) (w : (⟨S64x10, .f32⟩ : BufTy).Contents (Elt F)) : (⟨S100000x10, .f32⟩ : BufTy).Contents (Elt F) :=
  Host.dotGeneral dot_S100000x64_S64x10_S100000x10_1_0_0_1_n_n none h w

theorem stage_v50 (x0 : (⟨S100000x128, .f32⟩ : BufTy).Contents (Elt F)) (x1 : (⟨S2x1600000, .i32⟩ : BufTy).Contents (Elt F)) (x2 : (⟨S128x64, .f32⟩ : BufTy).Contents (Elt F)) (x3 : (⟨S64, .f32⟩ : BufTy).Contents (Elt F)) (x4 : (⟨S64x10, .f32⟩ : BufTy).Contents (Elt F)) :
    val_main_v50 (F := F) x0 x1 x2 x3 x4 = dense2 (val_main_v49 (F := F) x0 x1 x2 x3) x4 := rfl

/-- The largest entry of each row (the reference takes one more maximum with −∞, which changes nothing). -/
def rowMax (z : (⟨S100000x10, .f32⟩ : BufTy).Contents (Elt F)) : (⟨S100000, .f32⟩ : BufTy).Contents (Elt F) :=
  maximumf (val_main_call2_v1 (F := F)) (Host.reduce FloatOps.maximumf z (val_main_call2_cst (F := F)) reducesTo_S100000x10_S100000_d1 h_S_)

/-- Each row with its largest entry taken off. -/
def shifted (z : (⟨S100000x10, .f32⟩ : BufTy).Contents (Elt F)) : (⟨S100000x10, .f32⟩ : BufTy).Contents (Elt F) :=
  subf z (broadcastInDim S100000x10 ![0, 1] bcast_S100000x1_S100000x10_0_1 (broadcastInDim S100000x1 ![0] bcast_S100000_S100000x1_0 (rowMax z)))

/-- The row-wise log-softmax. -/
def rowLsm (z : (⟨S100000x10, .f32⟩ : BufTy).Contents (Elt F)) : (⟨S100000x10, .f32⟩ : BufTy).Contents (Elt F) :=
  subf (shifted z) (broadcastInDim S100000x10 ![0, 1] bcast_S100000x1_S100000x10_0_1 (Host.log (broadcastInDim S100000x1 ![0] bcast_S100000_S100000x1_0
    (Host.reduceAdd (Host.exp (shifted z)) (val_main_call2_cst_1 (F := F)) reducesTo_S100000x10_S100000_d1 h_S_))))

/-- Bias and the row-wise log-softmax of the logits. -/
def biasLsm (a : (⟨S100000x10, .f32⟩ : BufTy).Contents (Elt F)) (b : (⟨S1x10, .f32⟩ : BufTy).Contents (Elt F)) : (⟨S100000x10, .f32⟩ : BufTy).Contents (Elt F) :=
  rowLsm (addf a (broadcastInDim S100000x10 ![0, 1] bcast_S1x10_S100000x10_0_1 b))

theorem stage_v67 (x0 : (⟨S100000x128, .f32⟩ : BufTy).Contents (Elt F)) (x1 : (⟨S2x1600000, .i32⟩ : BufTy).Contents (Elt F)) (x2 : (⟨S128x64, .f32⟩ : BufTy).Contents (Elt F)) (x3 : (⟨S64, .f32⟩ : BufTy).Contents (Elt F)) (x4 : (⟨S64x10, .f32⟩ : BufTy).Contents (Elt F)) (x5 : (⟨S10, .f32⟩ : BufTy).Contents (Elt F)) :
    val_main_v67 (F := F) x0 x1 x2 x3 x4 x5 = biasLsm (val_main_v63 (F := F) x0 x1 x2 x3 x4) (val_main_v64 (F := F) x5) := rfl

end Stages

/-! ## The dense stages read at an index, over the extended reals -/

/-- Entry (n, j) of the first product is the sum over the 128 features. -/
theorem dense1_apply (x : (⟨S100000x128, .f32⟩ : BufTy).Contents (Elt Ideal)) (w : (⟨S128x64, .f32⟩ : BufTy).Contents (Elt Ideal)) (i : S100000x64.Idx) :
    dense1 (F := Ideal) x w i = ∑ k : Fin 128, x (lidx_main_v32 i k) * w (ridx_main_v32 i k) :=
  val_main_v32_apply x w i

/-- The bias row spread over the nodes, read at (n, j): its entry (0, j). -/
theorem biasRow64_apply (b : (⟨S1x64, .f32⟩ : BufTy).Contents (Elt Ideal)) (i : S100000x64.Idx) :
    broadcastInDim S100000x64 ![0, 1] bcast_S1x64_S100000x64_0_1 b i = b (idx_main_v47 i) :=
  broadcastInDim_apply _ bcast_S1x64_S100000x64_0_1 b i (idx_main_v47 i) (fun a => match a with
    | ⟨0, _⟩ => by show 0 = if (1 : Nat) = 1 then 0 else (i 0).val; rw [if_pos rfl]
    | ⟨1, _⟩ => by show (i 1).val = if (64 : Nat) = 1 then 0 else (i 1).val; rw [if_neg (by decide)])

theorem biasRelu_apply (a : (⟨S100000x64, .f32⟩ : BufTy).Contents (Elt Ideal)) (b : (⟨S1x64, .f32⟩ : BufTy).Contents (Elt Ideal)) (i : S100000x64.Idx) :
    biasRelu (F := Ideal) a b i = max (a i + b (idx_main_v47 i)) (Ideal.ofBits .f32 0x00000000#32) := by
  unfold biasRelu
  show max (a i + broadcastInDim S100000x64 ![0, 1] bcast_S1x64_S100000x64_0_1 b i) (val_main_call1_v0 (F := Ideal) i) = _
  rw [biasRow64_apply, val_main_call1_v0_apply]
  rfl

/-- Entry (n, j) of the second product is the sum over the 64 hidden units. -/
theorem dense2_apply (h : (⟨S100000x64, .f32⟩ : BufTy).Contents (Elt Ideal)) (w : (⟨S64x10, .f32⟩ : BufTy).Contents (Elt Ideal)) (i : S100000x10.Idx) :
    dense2 (F := Ideal) h w i = ∑ k : Fin 64, h (lidx_main_v50 i k) * w (ridx_main_v50 i k) := by
  unfold dense2
  simp only [Host.dotGeneral]
  rw [Ideal.dotGeneral_apply, ← Equiv.sum_comp (ValueIdx.contrEquiv1 dot_S100000x64_S64x10_S100000x10_1_0_0_1_n_n 64 rfl rfl).symm]
  refine Finset.sum_congr rfl fun k _ => ?_
  have hk := ValueIdx.contrEquiv1_symm_val dot_S100000x64_S64x10_S100000x10_1_0_0_1_n_n 64 rfl rfl k
  have el : dot_S100000x64_S64x10_S100000x10_1_0_0_1_n_n.lhsIdx i ((ValueIdx.contrEquiv1 dot_S100000x64_S64x10_S100000x10_1_0_0_1_n_n 64 rfl rfl).symm k) = lidx_main_v50 i k := funext fun a => Fin.ext (by
    match a with
    | ⟨0, _⟩ => exact lhs_main_v50_0 _ _
    | ⟨1, _⟩ => exact (lhs_main_v50_1 _ _).trans hk)
  have er : dot_S100000x64_S64x10_S100000x10_1_0_0_1_n_n.rhsIdx i ((ValueIdx.contrEquiv1 dot_S100000x64_S64x10_S100000x10_1_0_0_1_n_n 64 rfl rfl).symm k) = ridx_main_v50 i k := funext fun a => Fin.ext (by
    match a with
    | ⟨0, _⟩ => exact (rhs_main_v50_0 _ _).trans hk
    | ⟨1, _⟩ => exact rhs_main_v50_1 _ _)
  rw [el, er]

/-- The logits with the bias on: z(n, j) = a(n, j) + b(0, j). -/
def logits (a : (⟨S100000x10, .f32⟩ : BufTy).Contents (Elt Ideal)) (b : (⟨S1x10, .f32⟩ : BufTy).Contents (Elt Ideal)) : S100000x10.Idx → EReal := fun i => a i + b (idx_main_v65 i)

/-- The row index of an entry. -/
abbrev rowOf (i : S100000x10.Idx) : S100000.Idx := idx_main_call2_v3 (idx_main_call2_v4 i)

/-- The largest of the ten logits of row `n`, as the fold of `max` from −∞ over the classes. -/
def logitMax (a : (⟨S100000x10, .f32⟩ : BufTy).Contents (Elt Ideal)) (b : (⟨S1x10, .f32⟩ : BufTy).Contents (Elt Ideal)) (n : S100000.Idx) : EReal :=
  (Finset.univ : Finset (Fin 10)).fold max (Ideal.ofBits .f32 0xFF800000#32) (fun k => logits a b (idx_main_call2_v7 n k))

/-- The bias row spread over the nodes, read at (n, j): its entry (0, j). -/
theorem biasRow10_apply (b : (⟨S1x10, .f32⟩ : BufTy).Contents (Elt Ideal)) (i : S100000x10.Idx) :
    broadcastInDim S100000x10 ![0, 1] bcast_S1x10_S100000x10_0_1 b i = b (idx_main_v65 i) :=
  broadcastInDim_apply _ bcast_S1x10_S100000x10_0_1 b i (idx_main_v65 i) (fun a => match a with
    | ⟨0, _⟩ => by show 0 = if (1 : Nat) = 1 then 0 else (i 0).val; rw [if_pos rfl]
    | ⟨1, _⟩ => by show (i 1).val = if (10 : Nat) = 1 then 0 else (i 1).val; rw [if_neg (by decide)])

/-- A per-row value spread over the ten classes (through the [n, 1] column), read at (n, j): the row's value. -/
theorem perRow_apply (v : (⟨S100000, .f32⟩ : BufTy).Contents (Elt Ideal)) (i : S100000x10.Idx) :
    broadcastInDim S100000x10 ![0, 1] bcast_S100000x1_S100000x10_0_1 (broadcastInDim S100000x1 ![0] bcast_S100000_S100000x1_0 v) i
      = v (rowOf i) := by
  rw [broadcastInDim_apply _ bcast_S100000x1_S100000x10_0_1 _ i (idx_main_call2_v4 i) (fun a => match a with
    | ⟨0, _⟩ => by show (i 0).val = if (100000 : Nat) = 1 then 0 else (i 0).val; rw [if_neg (by decide)]
    | ⟨1, _⟩ => by show 0 = if (1 : Nat) = 1 then 0 else (i 1).val; rw [if_pos rfl])]
  exact broadcastInDim_apply _ bcast_S100000_S100000x1_0 v (idx_main_call2_v4 i) (rowOf i) (fun a => match a with
    | ⟨0, _⟩ => by show (i 0).val = if (100000 : Nat) = 1 then 0 else (i 0).val; rw [if_neg (by decide)])

/-- The host's exponential and logarithm at an entry are the exponential and the logarithm of the entry. -/
theorem hostExp_apply {s : Shape} (x : FVec Ideal s .f32) (j : s.Idx) : Host.exp x j = Ideal.exp (x j) := rfl
theorem hostLog_apply {s : Shape} (x : FVec Ideal s .f32) (j : s.Idx) : Host.log x j = Ideal.log (x j) := rfl

/-- The reference's row maximum is the fold of `max` over the row: the outer maximum with −∞ is absorbed. -/
theorem rowMax_apply (z : (⟨S100000x10, .f32⟩ : BufTy).Contents (Elt Ideal)) (n : S100000.Idx) :
    rowMax (F := Ideal) z n = (Finset.univ : Finset (Fin 10)).fold max (Ideal.ofBits .f32 0xFF800000#32) (fun k => z (idx_main_call2_v7 n k)) := by
  unfold rowMax
  rw [ValueIdx.maximumf_apply, Host.reduce_eq_fold_single (α := Ideal .f32) (FloatOps.maximumf (F := Ideal) (φ := .f32)) z (val_main_call2_cst (F := Ideal)) reducesTo_S100000x10_S100000_d1 (by decide) h_S_ n,
    val_main_call2_v1_apply, val_main_call2_cst_0_apply, val_main_call2_cst_apply]
  have hf : ((z ∘ (by decide : Shape.Reduces S100000x10 [1] S100000).lift n) : Fin 10 → EReal) = fun k => z (idx_main_call2_v7 n k) :=
    funext fun k => congrArg z (funext fun a => Fin.ext (by match a with | ⟨0, _⟩ => rfl | ⟨1, _⟩ => rfl))
  have absorbed : ∀ g : Fin 10 → EReal, max (Ideal.ofBits .f32 0xFF800000#32) ((Finset.univ : Finset (Fin 10)).fold max (Ideal.ofBits .f32 0xFF800000#32) g)
      = (Finset.univ : Finset (Fin 10)).fold max (Ideal.ofBits .f32 0xFF800000#32) g :=
    fun g => max_eq_right ((Finset.le_fold_max _).2 (Or.inl le_rfl))
  exact (absorbed _).trans (congrArg (fun g : Fin 10 → EReal => (Finset.univ : Finset (Fin 10)).fold max (Ideal.ofBits .f32 0xFF800000#32) g) hf)

theorem shifted_apply (z : (⟨S100000x10, .f32⟩ : BufTy).Contents (Elt Ideal)) (j : S100000x10.Idx) :
    shifted (F := Ideal) z j = z j - (Finset.univ : Finset (Fin 10)).fold max (Ideal.ofBits .f32 0xFF800000#32) (fun k => z (idx_main_call2_v7 (rowOf j) k)) := by
  unfold shifted
  rw [ValueIdx.subf_apply, perRow_apply, rowMax_apply]

/-- The row sum of the exponentials, read at a row: the reference's initial value 0 plus the ten terms. -/
theorem rowSumExp_apply (s : (⟨S100000x10, .f32⟩ : BufTy).Contents (Elt Ideal)) (n : S100000.Idx) :
    Host.reduceAdd (F := Ideal) (φ := .f32) (Host.exp (F := Ideal) (φ := .f32) s) (val_main_call2_cst_1 (F := Ideal)) reducesTo_S100000x10_S100000_d1 h_S_ n
      = ∑ k : Fin 10, Ideal.exp (s (idx_main_call2_v7 n k)) := by
  simp only [Host.reduceAdd, Ideal.hostReduceAdd_def]
  rw [Ideal.hostReduceAdd_single reducesTo_S100000x10_S100000_d1 (by decide)]
  show Ideal.ofBits .f32 0x00000000#32 + _ = _
  rw [Ideal.ofBits_zero_f32, zero_add]
  refine Finset.sum_congr rfl fun k _ => ?_
  rw [hostExp_apply]
  exact congrArg (fun j => Ideal.exp (s j)) (funext fun a => Fin.ext (by match a with | ⟨0, _⟩ => rfl | ⟨1, _⟩ => rfl))

theorem rowLsm_apply (z : (⟨S100000x10, .f32⟩ : BufTy).Contents (Elt Ideal)) (i : S100000x10.Idx) :
    rowLsm (F := Ideal) z i = shifted (F := Ideal) z i - Ideal.log (∑ k : Fin 10, Ideal.exp (shifted (F := Ideal) z (idx_main_call2_v7 (rowOf i) k))) := by
  unfold rowLsm
  rw [ValueIdx.subf_apply, broadcastInDim_apply _ bcast_S100000x1_S100000x10_0_1 _ i (idx_main_call2_v4 i) (fun a => match a with
    | ⟨0, _⟩ => by show (i 0).val = if (100000 : Nat) = 1 then 0 else (i 0).val; rw [if_neg (by decide)]
    | ⟨1, _⟩ => by show 0 = if (1 : Nat) = 1 then 0 else (i 1).val; rw [if_pos rfl]),
    hostLog_apply,
    broadcastInDim_apply _ bcast_S100000_S100000x1_0 _ (idx_main_call2_v4 i) (rowOf i) (fun a => match a with
    | ⟨0, _⟩ => by show (i 0).val = if (100000 : Nat) = 1 then 0 else (i 0).val; rw [if_neg (by decide)]),
    rowSumExp_apply]

/-- Entry (n, j) of the last stage: the logit less its row's largest, less the log of the row's sum of exponentials of the same. -/
theorem biasLsm_apply (a : (⟨S100000x10, .f32⟩ : BufTy).Contents (Elt Ideal)) (b : (⟨S1x10, .f32⟩ : BufTy).Contents (Elt Ideal)) (i : S100000x10.Idx) :
    biasLsm (F := Ideal) a b i = (logits a b i - logitMax a b (rowOf i))
      - Ideal.log (∑ k : Fin 10, Ideal.exp (logits a b (idx_main_call2_v7 (rowOf i) k) - logitMax a b (rowOf i))) := by
  have hz : (addf (F := Ideal) (φ := .f32) a (broadcastInDim S100000x10 ![0, 1] bcast_S1x10_S100000x10_0_1 b) : (⟨S100000x10, .f32⟩ : BufTy).Contents (Elt Ideal)) = logits a b :=
    funext fun j => by show a j + broadcastInDim S100000x10 ![0, 1] bcast_S1x10_S100000x10_0_1 b j = _; rw [biasRow10_apply]; rfl
  unfold biasLsm logitMax
  rw [hz, rowLsm_apply, shifted_apply]
  refine congrArg (fun t => _ - Ideal.log t) (Finset.sum_congr rfl fun k _ => ?_)
  rw [shifted_apply]

end Cert.Spec

end
-- ==== Proof.HostGlue.lean ====
/-
  The host stretches of the kernel program, read at the buffers its regions and its later stretches use.

  The program's boundaries are a fold: the launch memory, three stretches of host operations (the edge list with
  self loops, the degree and its inverse square root, the edge weights), the first dense region, a stretch (the
  first neighbourhood sum and the bias row), two regions, a stretch (the second neighbourhood sum and the bias
  row), the last region. Read at a buffer, each boundary's contents are what the last operation that wrote the
  buffer computed; a buffer no operation of a stretch writes, and no region owns, passes through unchanged. The
  host operations are the reference's own, so each value is the reference's stage function of the same arguments:
  the edge ends `main_v3`, `main_v6` and the weights `main_v31` as functions of the edge list alone, and each
  neighbourhood sum as `agg64` / `agg10` of whatever array the region before it left.
-/
import proofs.«125387_j2903397892892_1_alg».proof.Proof.Gen.KernelIdeal.Frame
import proofs.«125387_j2903397892892_1_alg».proof.Proof.Spec
import Idealize.ShloMosaic.Lib.StableHlo.Run
import Idealize.ShloMosaic.Lib.ValueLayout

set_option maxRecDepth 16384

noncomputable section

namespace Cert.KernelIdeal.Glue

open Cert.KernelIdeal Cert.KernelIdeal.Gen Idealize.ShloMosaic Idealize.ShloMosaic.TcCoe Idealize.SL.Sem Idealize.ShloMosaic.StableHlo
open Cert.ReferenceIdeal.ReadFix (val_main_v3 val_main_v6 val_main_v12 val_main_v15 val_main_cst_3 val_main_v16 val_main_v31 val_main_v46 val_main_v64 val_main_v46_apply val_main_v64_apply idx_main_v46 idx_main_v64)

/-- A buffer that no operation of a stretch writes holds after the stretch what it held before. -/
syntax "kept_across " ident : tactic
macro_rules
  | `(tactic| kept_across $ops:ident) => `(tactic|
      exact StableHlo.after_of_forall_not_mem _ _ (List.forall_iff_forall_mem.mp (by
        simp only [$ops:ident, List.flatten_cons, List.flatten_nil, List.append_nil, List.cons_append,
          List.nil_append, List.Forall, StableHlo.nullary_writes, StableHlo.unary_writes, StableHlo.binary_writes, StableHlo.ternary_writes, StableHlo.quaternary_writes, StableHlo.reshape_writes, StableHlo.binaryIndexed_writes, Finset.mem_singleton]
        repeat' apply And.intro
        all_goals exact StableHlo.devRef_ne_of_ne (by decide))))

/-! ## A bias vector laid out as a one-row matrix -/

section Rows
variable {F : FTy → Type} [FloatOps F]

/-- The 64 biases reshaped to a 1×64 row are the same row the reference gets by spreading them along a new leading axis. -/
theorem row64 (x : (⟨S64, .f32⟩ : BufTy).Contents (Elt F)) :
    shapeCast S1x64 x shapeCasts_S64_S1x64 = val_main_v46 (F := F) x := by
  funext i
  obtain ⟨u, p, rfl⟩ : ∃ (u : Fin 1) (p : Fin 64), i = ValueIdx.ix2 u p := ⟨i 0, i 1, ValueIdx.eq_ix2 i⟩
  rw [val_main_v46_apply]
  refine (ValueIdx.shapeCast_a_1a_apply x shapeCasts_S64_S1x64 u p).trans ?_
  exact congrArg x (funext fun a => match a with | ⟨0, _⟩ => rfl)

/-- The same for the 10 class biases. -/
theorem row10 (x : (⟨S10, .f32⟩ : BufTy).Contents (Elt F)) :
    shapeCast S1x10 x shapeCasts_S10_S1x10 = val_main_v64 (F := F) x := by
  funext i
  obtain ⟨u, p, rfl⟩ : ∃ (u : Fin 1) (p : Fin 10), i = ValueIdx.ix2 u p := ⟨i 0, i 1, ValueIdx.eq_ix2 i⟩
  rw [val_main_v64_apply]
  refine (ValueIdx.shapeCast_a_1a_apply x shapeCasts_S10_S1x10 u p).trans ?_
  exact congrArg x (funext fun a => match a with | ⟨0, _⟩ => rfl)

end Rows

variable {F : FTy → Type} [FloatOps F]
variable (m : (ℓ : Loc nD τ sig) → Buf (Elt F) ℓ) (ρ : Dev nD → PrngReg) (c : Dev nD)

/-! ## After the first stretch: the edge ends, and what the degree's inverse square root is selected from -/

theorem w1_v3 : W1 m ρ c (Proc.devRef .tc main_v3) = val_main_v3 (F := F) (m ((c : Thread nD τ).loc main_arg1)) := by
  show StableHlo.after hostOps0 (W0 m ρ c) (Proc.devRef .tc main_v3) = _
  dsimp only [hostOps0]
  after_results
  rfl

theorem w1_v6 : W1 m ρ c (Proc.devRef .tc main_v6) = val_main_v6 (F := F) (m ((c : Thread nD τ).loc main_arg1)) := by
  show StableHlo.after hostOps0 (W0 m ρ c) (Proc.devRef .tc main_v6) = _
  dsimp only [hostOps0]
  after_results
  rfl

theorem w1_v12 : W1 m ρ c (Proc.devRef .tc main_v12) = val_main_v12 (F := F) (m ((c : Thread nD τ).loc main_arg1)) := by
  show StableHlo.after hostOps0 (W0 m ρ c) (Proc.devRef .tc main_v12) = _
  dsimp only [hostOps0]
  after_results
  rfl

theorem w1_v15 : W1 m ρ c (Proc.devRef .tc main_v15) = val_main_v15 (F := F) (m ((c : Thread nD τ).loc main_arg1)) := by
  show StableHlo.after hostOps0 (W0 m ρ c) (Proc.devRef .tc main_v15) = _
  dsimp only [hostOps0]
  after_results
  rfl

theorem w1_cst_3 : W1 m ρ c (Proc.devRef .tc main_cst_3) = val_main_cst_3 (F := F) := by
  show StableHlo.after hostOps0 (W0 m ρ c) (Proc.devRef .tc main_cst_3) = _
  dsimp only [hostOps0]
  after_results
  rfl

/-! ## After the second stretch: the inverse square root of the degree, zero where the degree is not positive -/

theorem w2_v3 : W2 m ρ c (Proc.devRef .tc main_v3) = val_main_v3 (F := F) (m ((c : Thread nD τ).loc main_arg1)) :=
  (by kept_across hostOps0_1 : W2 m ρ c (Proc.devRef .tc main_v3) = W1 m ρ c (Proc.devRef .tc main_v3)).trans (w1_v3 m ρ c)

theorem w2_v6 : W2 m ρ c (Proc.devRef .tc main_v6) = val_main_v6 (F := F) (m ((c : Thread nD τ).loc main_arg1)) :=
  (by kept_across hostOps0_1 : W2 m ρ c (Proc.devRef .tc main_v6) = W1 m ρ c (Proc.devRef .tc main_v6)).trans (w1_v6 m ρ c)

theorem w2_v16 : W2 m ρ c (Proc.devRef .tc main_v16) = val_main_v16 (F := F) (m ((c : Thread nD τ).loc main_arg1)) := by
  have h12 := w1_v12 m ρ c
  have h15 := w1_v15 m ρ c
  have h3 := w1_cst_3 m ρ c
  show StableHlo.after hostOps0_1 (W1 m ρ c) (Proc.devRef .tc main_v16) = _
  generalize W1 m ρ c = W at h12 h15 h3 ⊢
  dsimp only [hostOps0_1]
  after_results_simp
  try simp only [TRef.ofBuf, TRef.toBuf, cast_eq]
  rw [h12, h15, h3]
  rfl

/-! ## After the third stretch (the first region's entry): the edge weights -/

theorem w3_v3 : W3 m ρ c (Proc.devRef .tc main_v3) = val_main_v3 (F := F) (m ((c : Thread nD τ).loc main_arg1)) :=
  (by kept_across hostOps0_2 : W3 m ρ c (Proc.devRef .tc main_v3) = W2 m ρ c (Proc.devRef .tc main_v3)).trans (w2_v3 m ρ c)

theorem w3_v6 : W3 m ρ c (Proc.devRef .tc main_v6) = val_main_v6 (F := F) (m ((c : Thread nD τ).loc main_arg1)) :=
  (by kept_across hostOps0_2 : W3 m ρ c (Proc.devRef .tc main_v6) = W2 m ρ c (Proc.devRef .tc main_v6)).trans (w2_v6 m ρ c)

theorem w3_v31 : W3 m ρ c (Proc.devRef .tc main_v31) = val_main_v31 (F := F) (m ((c : Thread nD τ).loc main_arg1)) := by
  have h3 := w2_v3 m ρ c
  have h6 := w2_v6 m ρ c
  have h16 := w2_v16 m ρ c
  show StableHlo.after hostOps0_2 (W2 m ρ c) (Proc.devRef .tc main_v31) = _
  generalize W2 m ρ c = W at h3 h6 h16 ⊢
  dsimp only [hostOps0_2]
  after_results_simp
  rw [h3, h6, h16]
  rfl

/-- The argument arrays are as launched at the first region's entry: no host operation writes one. -/
theorem w3_arg0 : W3 m ρ c (Proc.devRef .tc main_arg0) = (m ((c : Thread nD τ).loc main_arg0)) := ((by kept_across hostOps0_2 : W3 m ρ c (Proc.devRef .tc main_arg0) = W2 m ρ c (Proc.devRef .tc main_arg0)).trans
      ((by kept_across hostOps0_1 : W2 m ρ c (Proc.devRef .tc main_arg0) = W1 m ρ c (Proc.devRef .tc main_arg0)).trans
        (by kept_across hostOps0 : W1 m ρ c (Proc.devRef .tc main_arg0) = W0 m ρ c (Proc.devRef .tc main_arg0))))
theorem w3_arg2 : W3 m ρ c (Proc.devRef .tc main_arg2) = (m ((c : Thread nD τ).loc main_arg2)) := ((by kept_across hostOps0_2 : W3 m ρ c (Proc.devRef .tc main_arg2) = W2 m ρ c (Proc.devRef .tc main_arg2)).trans
      ((by kept_across hostOps0_1 : W2 m ρ c (Proc.devRef .tc main_arg2) = W1 m ρ c (Proc.devRef .tc main_arg2)).trans
        (by kept_across hostOps0 : W1 m ρ c (Proc.devRef .tc main_arg2) = W0 m ρ c (Proc.devRef .tc main_arg2))))
theorem w3_arg3 : W3 m ρ c (Proc.devRef .tc main_arg3) = (m ((c : Thread nD τ).loc main_arg3)) := ((by kept_across hostOps0_2 : W3 m ρ c (Proc.devRef .tc main_arg3) = W2 m ρ c (Proc.devRef .tc main_arg3)).trans
      ((by kept_across hostOps0_1 : W2 m ρ c (Proc.devRef .tc main_arg3) = W1 m ρ c (Proc.devRef .tc main_arg3)).trans
        (by kept_across hostOps0 : W1 m ρ c (Proc.devRef .tc main_arg3) = W0 m ρ c (Proc.devRef .tc main_arg3))))
theorem w3_arg4 : W3 m ρ c (Proc.devRef .tc main_arg4) = (m ((c : Thread nD τ).loc main_arg4)) := ((by kept_across hostOps0_2 : W3 m ρ c (Proc.devRef .tc main_arg4) = W2 m ρ c (Proc.devRef .tc main_arg4)).trans
      ((by kept_across hostOps0_1 : W2 m ρ c (Proc.devRef .tc main_arg4) = W1 m ρ c (Proc.devRef .tc main_arg4)).trans
        (by kept_across hostOps0 : W1 m ρ c (Proc.devRef .tc main_arg4) = W0 m ρ c (Proc.devRef .tc main_arg4))))
theorem w3_arg5 : W3 m ρ c (Proc.devRef .tc main_arg5) = (m ((c : Thread nD τ).loc main_arg5)) := ((by kept_across hostOps0_2 : W3 m ρ c (Proc.devRef .tc main_arg5) = W2 m ρ c (Proc.devRef .tc main_arg5)).trans
      ((by kept_across hostOps0_1 : W2 m ρ c (Proc.devRef .tc main_arg5) = W1 m ρ c (Proc.devRef .tc main_arg5)).trans
        (by kept_across hostOps0 : W1 m ρ c (Proc.devRef .tc main_arg5) = W0 m ρ c (Proc.devRef .tc main_arg5))))

/-! ## After the first region: everything but its three arrays is as it was -/

theorem w4_v3 : W4 m ρ c (Proc.devRef .tc main_v3) = val_main_v3 (F := F) (m ((c : Thread nD τ).loc main_arg1)) := (W4_of_ne m ρ c main_v3 (by decide)).trans (w3_v3 m ρ c)
theorem w4_v6 : W4 m ρ c (Proc.devRef .tc main_v6) = val_main_v6 (F := F) (m ((c : Thread nD τ).loc main_arg1)) := (W4_of_ne m ρ c main_v6 (by decide)).trans (w3_v6 m ρ c)
theorem w4_v31 : W4 m ρ c (Proc.devRef .tc main_v31) = val_main_v31 (F := F) (m ((c : Thread nD τ).loc main_arg1)) := (W4_of_ne m ρ c main_v31 (by decide)).trans (w3_v31 m ρ c)
theorem w4_arg3 : W4 m ρ c (Proc.devRef .tc main_arg3) = (m ((c : Thread nD τ).loc main_arg3)) := (W4_of_ne m ρ c main_arg3 (by decide)).trans (w3_arg3 m ρ c)
theorem w4_arg4 : W4 m ρ c (Proc.devRef .tc main_arg4) = (m ((c : Thread nD τ).loc main_arg4)) := (W4_of_ne m ρ c main_arg4 (by decide)).trans (w3_arg4 m ρ c)
theorem w4_arg5 : W4 m ρ c (Proc.devRef .tc main_arg5) = (m ((c : Thread nD τ).loc main_arg5)) := (W4_of_ne m ρ c main_arg5 (by decide)).trans (w3_arg5 m ρ c)

/-! ## After the fourth stretch (the second region's entry): the first neighbourhood sum and the bias row -/

/-- The first neighbourhood sum, of whatever the first region left in its output array. -/
theorem w5_v45 (X : (⟨Cert.ReferenceIdeal.S100000x64, .f32⟩ : BufTy).Contents (Elt F)) (hX : W4 m ρ c (Proc.devRef .tc main_v32) = X) :
    W5 m ρ c (Proc.devRef .tc main_v45) = Cert.Spec.agg64 X (m ((c : Thread nD τ).loc main_arg1)) := by
  show StableHlo.after hostOps1 (W4 m ρ c) (Proc.devRef .tc main_v45) = _
  dsimp only [hostOps1]
  after_results_simp
  rw [hX, w4_v3, w4_v6, w4_v31]
  rfl

theorem w5_v46 : W5 m ρ c (Proc.devRef .tc main_v46) = val_main_v46 (F := F) (m ((c : Thread nD τ).loc main_arg3)) := by
  show StableHlo.after hostOps1 (W4 m ρ c) (Proc.devRef .tc main_v46) = _
  dsimp only [hostOps1]
  after_results
  rw [w4_arg3]
  exact row64 _

theorem w5_v3 : W5 m ρ c (Proc.devRef .tc main_v3) = val_main_v3 (F := F) (m ((c : Thread nD τ).loc main_arg1)) :=
  (by kept_across hostOps1 : W5 m ρ c (Proc.devRef .tc main_v3) = W4 m ρ c (Proc.devRef .tc main_v3)).trans (w4_v3 m ρ c)
theorem w5_v6 : W5 m ρ c (Proc.devRef .tc main_v6) = val_main_v6 (F := F) (m ((c : Thread nD τ).loc main_arg1)) :=
  (by kept_across hostOps1 : W5 m ρ c (Proc.devRef .tc main_v6) = W4 m ρ c (Proc.devRef .tc main_v6)).trans (w4_v6 m ρ c)
theorem w5_v31 : W5 m ρ c (Proc.devRef .tc main_v31) = val_main_v31 (F := F) (m ((c : Thread nD τ).loc main_arg1)) :=
  (by kept_across hostOps1 : W5 m ρ c (Proc.devRef .tc main_v31) = W4 m ρ c (Proc.devRef .tc main_v31)).trans (w4_v31 m ρ c)
theorem w5_arg4 : W5 m ρ c (Proc.devRef .tc main_arg4) = (m ((c : Thread nD τ).loc main_arg4)) :=
  (by kept_across hostOps1 : W5 m ρ c (Proc.devRef .tc main_arg4) = W4 m ρ c (Proc.devRef .tc main_arg4)).trans (w4_arg4 m ρ c)
theorem w5_arg5 : W5 m ρ c (Proc.devRef .tc main_arg5) = (m ((c : Thread nD τ).loc main_arg5)) :=
  (by kept_across hostOps1 : W5 m ρ c (Proc.devRef .tc main_arg5) = W4 m ρ c (Proc.devRef .tc main_arg5)).trans (w4_arg5 m ρ c)

/-! ## After the second and the third region -/

theorem w6_arg4 : W6 m ρ c (Proc.devRef .tc main_arg4) = (m ((c : Thread nD τ).loc main_arg4)) := (W6_of_ne m ρ c main_arg4 (by decide)).trans (w5_arg4 m ρ c)

theorem w7_v3 : W7 m ρ c (Proc.devRef .tc main_v3) = val_main_v3 (F := F) (m ((c : Thread nD τ).loc main_arg1)) :=
  (W7_of_ne m ρ c main_v3 (by decide)).trans ((W6_of_ne m ρ c main_v3 (by decide)).trans (w5_v3 m ρ c))
theorem w7_v6 : W7 m ρ c (Proc.devRef .tc main_v6) = val_main_v6 (F := F) (m ((c : Thread nD τ).loc main_arg1)) :=
  (W7_of_ne m ρ c main_v6 (by decide)).trans ((W6_of_ne m ρ c main_v6 (by decide)).trans (w5_v6 m ρ c))
theorem w7_v31 : W7 m ρ c (Proc.devRef .tc main_v31) = val_main_v31 (F := F) (m ((c : Thread nD τ).loc main_arg1)) :=
  (W7_of_ne m ρ c main_v31 (by decide)).trans ((W6_of_ne m ρ c main_v31 (by decide)).trans (w5_v31 m ρ c))
theorem w7_arg5 : W7 m ρ c (Proc.devRef .tc main_arg5) = (m ((c : Thread nD τ).loc main_arg5)) :=
  (W7_of_ne m ρ c main_arg5 (by decide)).trans ((W6_of_ne m ρ c main_arg5 (by decide)).trans (w5_arg5 m ρ c))

/-! ## After the fifth stretch (the last region's entry): the second neighbourhood sum and the bias row -/

/-- The second neighbourhood sum, of whatever the third region left in its output array. -/
theorem w8_v61 (X : (⟨Cert.ReferenceIdeal.S100000x10, .f32⟩ : BufTy).Contents (Elt F)) (hX : W7 m ρ c (Proc.devRef .tc main_v48) = X) :
    W8 m ρ c (Proc.devRef .tc main_v61) = Cert.Spec.agg10 X (m ((c : Thread nD τ).loc main_arg1)) := by
  show StableHlo.after hostOps3 (W7 m ρ c) (Proc.devRef .tc main_v61) = _
  dsimp only [hostOps3]
  after_results_simp
  rw [hX, w7_v3, w7_v6, w7_v31]
  rfl

theorem w8_v62 : W8 m ρ c (Proc.devRef .tc main_v62) = val_main_v64 (F := F) (m ((c : Thread nD τ).loc main_arg5)) := by
  show StableHlo.after hostOps3 (W7 m ρ c) (Proc.devRef .tc main_v62) = _
  dsimp only [hostOps3]
  after_results
  rw [w7_arg5]
  exact row10 _

end Cert.KernelIdeal.Glue

end
-- ==== Proof.Region0.lean ====
/-
  Region 0, the first dense layer: after the region its output array is the whole product of the node features (100000×128) with the first weight matrix (128×64).
  A grid point t of the twenty reads rows 5000·t … 5000·t + 4999 of the left operand and the whole right operand,
  and writes the same rows of the output; the body is one matrix product into a zero accumulator (the changes of
  float format around it are the identity on the extended reals), so entry (r, j) of what it writes is
  Σₖ left(5000·t + r, k) · right(k, j) over the 128 values of k: the rows of the whole product. The twenty blocks
  tile the array, so after the region the array IS the whole product.
-/
import proofs.«125387_j2903397892892_1_alg».proof.Proof.Gen.KernelIdeal.Frame
import proofs.«125387_j2903397892892_1_alg».proof.Proof.Spec
import Idealize.ShloMosaic.Lib.Pipeline.Value
import Idealize.ShloMosaic.Lib.ValueIdx
import Idealize.ShloMosaic.PureOps.Ideal.Laws

set_option maxRecDepth 16384

noncomputable section

namespace Cert.KernelIdeal.Region0

open Cert.KernelIdeal Cert.KernelIdeal.Gen Idealize.ShloMosaic Idealize.ShloMosaic.TcCoe Idealize.SL.Sem
open Idealize.ShloMosaic.Pipeline (Dat)

/-! ## The body's product at an index -/

/-- Where the product at output index j reads the left operand's block: row j₀, column k. -/
abbrev li (j : S5000x64.Idx) (k : Fin 128) : S5000x128.Idx := fun a => match a with
  | ⟨0, _⟩ => ⟨(j 0).val, (j 0).isLt⟩
  | ⟨1, _⟩ => ⟨k.val, k.isLt⟩
/-- … and the right operand: row k, column j₁. -/
abbrev ri (j : S5000x64.Idx) (k : Fin 128) : S128x64.Idx := fun a => match a with
  | ⟨0, _⟩ => ⟨k.val, k.isLt⟩
  | ⟨1, _⟩ => ⟨(j 1).val, (j 1).isLt⟩

theorem lhs_0 (i : S5000x64.Idx) (q : dot_S5000x128_S128x64_S5000x64_1_0_0_1_n_n.contr.Idx) : (dot_S5000x128_S128x64_S5000x64_1_0_0_1_n_n.lhsIdx i q 0).val = (i 0).val := by
  unfold DotDims.lhsIdx
  rw [dif_neg (show ¬(0 : Fin S5000x128.rank) ∈ dot_S5000x128_S128x64_S5000x64_1_0_0_1_n_n.lhsBatch by decide), dif_pos (show (0 : Fin S5000x128.rank) ∈ dot_S5000x128_S128x64_S5000x64_1_0_0_1_n_n.lhsNonContracting by decide)]
  rfl
theorem lhs_1 (i : S5000x64.Idx) (q : dot_S5000x128_S128x64_S5000x64_1_0_0_1_n_n.contr.Idx) : (dot_S5000x128_S128x64_S5000x64_1_0_0_1_n_n.lhsIdx i q 1).val = (q ⟨0, by decide⟩).val :=
  dot_S5000x128_S128x64_S5000x64_1_0_0_1_n_n.lhsIdx_val_of_single rfl i q
theorem rhs_0 (i : S5000x64.Idx) (q : dot_S5000x128_S128x64_S5000x64_1_0_0_1_n_n.contr.Idx) : (dot_S5000x128_S128x64_S5000x64_1_0_0_1_n_n.rhsIdx i q 0).val = (q ⟨0, by decide⟩).val :=
  dot_S5000x128_S128x64_S5000x64_1_0_0_1_n_n.rhsIdx_val_of_single rfl i q
theorem rhs_1 (i : S5000x64.Idx) (q : dot_S5000x128_S128x64_S5000x64_1_0_0_1_n_n.contr.Idx) : (dot_S5000x128_S128x64_S5000x64_1_0_0_1_n_n.rhsIdx i q 1).val = (i 1).val := by
  unfold DotDims.rhsIdx
  rw [dif_neg (show ¬(1 : Fin S128x64.rank) ∈ dot_S5000x128_S128x64_S5000x64_1_0_0_1_n_n.rhsBatch by decide), dif_pos (show (1 : Fin S128x64.rank) ∈ dot_S5000x128_S128x64_S5000x64_1_0_0_1_n_n.rhsNonContracting by decide)]
  rfl

/-- The body's payload at an index: the sum over k of the products (the accumulator is zero, the narrowings are the identity). -/
theorem pay_apply (x0 : Vec Ideal S5000x128 .f32) (x1 : Vec Ideal S128x64 .f32) (j : S5000x64.Idx) :
    k0_pay1 (F := Ideal) x0 x1 j = ∑ k : Fin 128, x0 (li j k) * x1 (ri j k) := by
  show FloatOps.matmul dot_S5000x128_S128x64_S5000x64_1_0_0_1_n_n none (truncf .bf16 x0 bitsLt_bf16_f32) (truncf .bf16 x1 bitsLt_bf16_f32) (constant (F := Ideal) S5000x64 .f32 0x00000000#32) j = _
  rw [Ideal.matmul_constant_zero_apply, ← Equiv.sum_comp (ValueIdx.contrEquiv1 dot_S5000x128_S128x64_S5000x64_1_0_0_1_n_n 128 rfl rfl).symm]
  refine Finset.sum_congr rfl fun k _ => ?_
  have hk := ValueIdx.contrEquiv1_symm_val dot_S5000x128_S128x64_S5000x64_1_0_0_1_n_n 128 rfl rfl k
  have el : dot_S5000x128_S128x64_S5000x64_1_0_0_1_n_n.lhsIdx j ((ValueIdx.contrEquiv1 dot_S5000x128_S128x64_S5000x64_1_0_0_1_n_n 128 rfl rfl).symm k) = li j k := funext fun a => Fin.ext (by
    match a with
    | ⟨0, _⟩ => exact lhs_0 _ _
    | ⟨1, _⟩ => exact (lhs_1 _ _).trans hk)
  have er : dot_S5000x128_S128x64_S5000x64_1_0_0_1_n_n.rhsIdx j ((ValueIdx.contrEquiv1 dot_S5000x128_S128x64_S5000x64_1_0_0_1_n_n 128 rfl rfl).symm k) = ri j k := funext fun a => Fin.ext (by
    match a with
    | ⟨0, _⟩ => exact (rhs_0 _ _).trans hk
    | ⟨1, _⟩ => exact rhs_1 _ _)
  rw [el, er]
  rfl

/-! ## From the blocks to the array -/

/- the buffer contents at the region's entry: any -/
variable (V : (c : Dev nD) → (b : Ref sig .tc) → Buf (Elt Ideal) ((c : Thread nD τ).loc b))

theorem zero_offsets : (![0, 0] : Fin 2 → Nat) = fun _ => 0 := funext fun a => by fin_cases a <;> rfl

/-- The printed index maps over the twenty points: the left operand's block and the output's move with the point
    along the rows, the right operand is one block. -/
theorem block_indices : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0)

/-- What point t writes back is block t of the whole product of the two arrays as the region finds them. -/
theorem flushed_eq (c : Dev nD) (t : Fin cfg0.N) :
    (dat0 (F := Ideal) V c).flushed 2 t
      = ((cfg0.win 2).blk t).view.read (Elt Ideal) (Cert.Spec.dense1 (F := Ideal) (V c main_arg0) (V c main_arg2)) := by
  show (cfg0.win 2).cut (grid0.coords t) ((dat0 (F := Ideal) V c).after 2 t) = _
  rw [after0_2]
  unfold out0_2
  rw [View.canon_unit_zero zero_offsets]
  simp only [View.ld_unit_zero (S := S5000x128) zero_offsets, View.ld_unit_zero (S := S128x64) zero_offsets]
  obtain ⟨e0, e1, e2, e3, e4, e5⟩ := block_indices t
  funext j
  show k0_pay1 (F := Ideal) (iblk0 V c 0 t) (iblk0 V c 1 t) j = Cert.Spec.dense1 (F := Ideal) (V c main_arg0) (V c main_arg2) (((cfg0.win 2).blk t).view.emb j)
  refine (pay_apply (iblk0 V c 0 t) (iblk0 V c 1 t) j).trans ?_
  rw [Cert.Spec.dense1_apply]
  refine Finset.sum_congr rfl fun k _ => ?_
  have hl : iblk0 V c 0 t (li j k) = V c main_arg0 (Cert.ReferenceIdeal.ReadFix.lidx_main_v32 (((cfg0.win 2).blk t).view.emb j) k) := by
    show V c main_arg0 (((cfg0.win 0).blk t).view.emb (li j k)) = _
    refine congrArg (V c main_arg0) (funext fun a => Fin.ext ?_)
    match a with
    | ⟨0, _⟩ =>
      show win0_0.index t (0 : Fin 2) * 5000 + 1 * (j 0).val = win0_2.index t (0 : Fin 2) * 5000 + 1 * (j 0).val
      omega
    | ⟨1, _⟩ =>
      show win0_0.index t (1 : Fin 2) * 128 + 1 * k.val = k.val
      omega
  have hr : iblk0 V c 1 t (ri j k) = V c main_arg2 (Cert.ReferenceIdeal.ReadFix.ridx_main_v32 (((cfg0.win 2).blk t).view.emb j) k) := by
    show V c main_arg2 (((cfg0.win 1).blk t).view.emb (ri j k)) = _
    refine congrArg (V c main_arg2) (funext fun a => Fin.ext ?_)
    match a with
    | ⟨0, _⟩ =>
      show win0_1.index t (0 : Fin 2) * 128 + 1 * k.val = k.val
      omega
    | ⟨1, _⟩ =>
      show win0_1.index t (1 : Fin 2) * 64 + 1 * (j 1).val = win0_2.index t (1 : Fin 2) * 64 + 1 * (j 1).val
      omega
  rw [hl, hr]

/-- An index of the output array is in point t's block iff each coordinate is in the block's range on its axis. -/
theorem mem_blk (t : Fin cfg0.N) (i : S100000x64.Idx) :
    i ∈ ((cfg0.win 2).blk t).view.set ↔ ∀ a : Fin 2, win0_2.index t a * S5000x64.size a ≤ (i a).val ∧ (i a).val < win0_2.index t a * S5000x64.size a + S5000x64.size a := by
  show i ∈ ((View.whole main_v32).slice (win0_2.rect t)).set ↔ _
  rw [View.set_slice_whole, Rect.mem_set_unit]
  exact Iff.rfl

/-- Every index of the output array lies in the block of the point that holds its row: row r in point r / 5000. -/
theorem cover (i : S100000x64.Idx) : ∃ t : Fin cfg0.N, (cfg0.win 2).flush t = true ∧ i ∈ ((cfg0.win 2).blk t).view.set := by
  have hi0 : (i 0).val < 100000 := (i 0).isLt
  have hi1 : (i 1).val < 64 := (i 1).isLt
  obtain ⟨t, ht⟩ : ∃ t : Fin cfg0.N, t.val = (i 0).val / 5000 := ⟨⟨(i 0).val / 5000, by show (i 0).val / 5000 < grid0.N; rw [N_0]; omega⟩, rfl⟩
  obtain ⟨e0, e1, e2, e3, e4, e5⟩ := block_indices t
  refine ⟨t, flush0_2 t, ?_⟩
  rw [mem_blk]
  intro a
  match a with
  | ⟨0, _⟩ =>
    show win0_2.index t (0 : Fin 2) * 5000 ≤ (i 0).val ∧ (i 0).val < win0_2.index t (0 : Fin 2) * 5000 + 5000
    omega
  | ⟨1, _⟩ =>
    show win0_2.index t (1 : Fin 2) * 64 ≤ (i 1).val ∧ (i 1).val < win0_2.index t (1 : Fin 2) * 64 + 64
    omega

/-- The output array after the twenty points: the whole product. -/
theorem arr (c : Dev nD) :
    (dat0 (F := Ideal) V c).arrAt 2 cfg0.N = Cert.Spec.dense1 (F := Ideal) (V c main_arg0) (V c main_arg2) :=
  (dat0 (F := Ideal) V c).arrAt_eq_of_cover 2 (Cert.Spec.dense1 (F := Ideal) (V c main_arg0) (V c main_arg2)) (fun t _ => flushed_eq V c t) (cover)

end Cert.KernelIdeal.Region0

end
-- ==== Proof.Region1.lean ====
/-
  Region 1 (bias and clipping of the hidden layer, 20 blocks of 5000 nodes): after the region its output array is the aggregated hidden layer plus the bias row, clipped below at zero, on the whole array.
-/
import proofs.«125387_j2903397892892_1_alg».proof.Proof.Gen.KernelIdeal.Frame
import proofs.«125387_j2903397892892_1_alg».proof.Proof.Spec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Region1

open Cert.KernelIdeal Cert.KernelIdeal.Gen Idealize.ShloMosaic Idealize.ShloMosaic.TcCoe Idealize.SL.Sem
open Idealize.ShloMosaic.Pipeline (Dat)

/- the buffer contents at the region's entry: any -/
variable (V : (c : Dev nD) → (b : Ref sig .tc) → Buf (Elt Ideal) ((c : Thread nD τ).loc b))

/-! ## One block: the sum with the bias row, clipped below at zero -/

/-- A sum clipped below at zero. -/
abbrev clipSum (x y : Elt Ideal .f32) : Elt Ideal .f32 := max (x + y) (Ideal.ofBits .f32 0x00000000#32)

/-- The body's accesses are whole blocks: their offsets are zero on both axes. -/
theorem zeroOffsets : (![0, 0] : Fin 2 → Nat) = fun _ => 0 := funext fun a => by fin_cases a <;> rfl

/-- Entry (r, j) of what the body stores: entry (r, j) of its first block plus entry (0, j) of the bias row, clipped below
    at zero. `k` is the bias row's entry (0, j). -/
theorem payload_apply (x0 : Vec Ideal S5000x64 .f32) (x1 : Vec Ideal S1x64 .f32) (j : S5000x64.Idx) (k : S1x64.Idx)
    (hk0 : (k 0).val = 0) (hk1 : (k 1).val = (j 1).val) :
    k1_pay1 (F := Ideal) x0 x1 j = clipSum (x0 j) (x1 k) := by
  unfold k1_pay1
  show max (shapeCast S5000x64 x0 shapeCasts_S5000x64_S5000x64 j
      + broadcastTo S5000x64 (shapeCast S1x64 x1 shapeCasts_S1x64_S1x64) broadcasts_S1x64_S5000x64 j) (Ideal.ofBits .f32 0x00000000#32) = _
  rw [shapeCast_self, shapeCast_self, broadcastTo_apply x1 broadcasts_S1x64_S5000x64 j k (fun a => match a with
    | ⟨0, _⟩ => by show (k 0).val = if (1 : Nat) = 1 then 0 else (j 0).val; rw [if_pos rfl]; exact hk0
    | ⟨1, _⟩ => by show (k 1).val = if (64 : Nat) = 1 then 0 else (j 1).val; rw [if_neg (by decide)]; exact hk1)]

/-! ## Where the blocks sit -/

/-- The index maps over the twenty points: the first operand's block moves with the output's, the bias row's block is the whole
    row at every point, and the output's block at point `t` is block `t` of the rows, all the columns. -/
theorem index_facts : ∀ t : Fin cfg1.N,
    win1_0.index t (0 : Fin 2) = win1_2.index t (0 : Fin 2)
    ∧ win1_0.index t (1 : Fin 2) = win1_2.index t (1 : Fin 2)
    ∧ win1_1.index t (0 : Fin 2) = 0
    ∧ win1_1.index t (1 : Fin 2) = 0
    ∧ win1_2.index t (0 : Fin 2) = t.val
    ∧ win1_2.index t (1 : Fin 2) = 0 :=
  (by decide +kernel : ∀ t : Fin grid1.N, _)

/-- The bias row's entry under entry `i` of the layer: (0, i 1). -/
abbrev rowEntry (i : S100000x64.Idx) : S1x64.Idx :=
  ValueIdx.ix2 (⟨0, Nat.one_pos⟩ : Fin 1) (⟨(i 1).val, (i 1).isLt⟩ : Fin 64)

/-- The first operand's block at point `t`, read at (r, j), is the aggregated hidden layer where the output's block has (r, j). -/
theorem hidden_block (c : Dev nD) (t : Fin cfg1.N) (j : S5000x64.Idx) :
    iblk1 (F := Ideal) V c 0 t j = V c main_v45 (((cfg1.win 2).blk t).view.emb j) := by
  obtain ⟨e0, e1, -, -, -, -⟩ := index_facts t
  show V c main_v45 (((cfg1.win 0).blk t).view.emb j) = V c main_v45 (((cfg1.win 2).blk t).view.emb j)
  have h : ((cfg1.win 0).blk t).view.emb j = ((cfg1.win 2).blk t).view.emb j := by
    funext a; apply Fin.ext
    match a with
    | ⟨0, _⟩ => show win1_0.index t (0 : Fin 2) * 5000 + 1 * (j 0).val = win1_2.index t (0 : Fin 2) * 5000 + 1 * (j 0).val; omega
    | ⟨1, _⟩ => show win1_0.index t (1 : Fin 2) * 64 + 1 * (j 1).val = win1_2.index t (1 : Fin 2) * 64 + 1 * (j 1).val; omega
  rw [h]

/-- The second operand's block at any point is the whole bias row: read at (0, j) it is the row's entry under the output
    block's (r, j). -/
theorem bias_block (c : Dev nD) (t : Fin cfg1.N) (j : S5000x64.Idx) :
    iblk1 (F := Ideal) V c 1 t (ValueIdx.ix2 (⟨0, Nat.one_pos⟩ : Fin 1) (⟨(j 1).val, (j 1).isLt⟩ : Fin 64))
      = V c main_v46 (rowEntry (((cfg1.win 2).blk t).view.emb j)) := by
  obtain ⟨-, -, e2, e3, -, e5⟩ := index_facts t
  show V c main_v46 (((cfg1.win 1).blk t).view.emb (ValueIdx.ix2 (⟨0, Nat.one_pos⟩ : Fin 1) (⟨(j 1).val, (j 1).isLt⟩ : Fin 64)))
    = V c main_v46 (rowEntry (((cfg1.win 2).blk t).view.emb j))
  have h : ((cfg1.win 1).blk t).view.emb (ValueIdx.ix2 (⟨0, Nat.one_pos⟩ : Fin 1) (⟨(j 1).val, (j 1).isLt⟩ : Fin 64))
      = rowEntry (((cfg1.win 2).blk t).view.emb j) := by
    funext a; apply Fin.ext
    match a with
    | ⟨0, _⟩ => show win1_1.index t (0 : Fin 2) * 1 + 1 * 0 = 0; omega
    | ⟨1, _⟩ => show win1_1.index t (1 : Fin 2) * 64 + 1 * (j 1).val = win1_2.index t (1 : Fin 2) * 64 + 1 * (j 1).val; omega
  rw [h]

/-- What point `t` writes back is its block of any whole-array function whose entry (n, j) is the hidden layer's (n, j) plus the
    bias row's (0, j), clipped below at zero. -/
theorem flushed_eq_of (c : Dev nD) (t : Fin cfg1.N) (G : Vec Ideal S100000x64 .f32)
    (hG : ∀ i : S100000x64.Idx, G i = clipSum (V c main_v45 i) (V c main_v46 (rowEntry i))) :
    (dat1 (F := Ideal) V c).flushed 2 t = ((cfg1.win 2).blk t).view.read (Elt Ideal) G := by
  show (cfg1.win 2).cut (grid1.coords t) ((dat1 (F := Ideal) V c).after 2 t) = _
  rw [after1_2]
  unfold out1_2
  rw [View.canon_unit_zero zeroOffsets]
  simp only [View.ld_unit_zero (S := S5000x64) zeroOffsets, View.ld_unit_zero (S := S1x64) zeroOffsets]
  refine funext fun (j : S5000x64.Idx) => ?_
  show k1_pay1 (F := Ideal) (iblk1 V c 0 t) (iblk1 V c 1 t) j = G (((cfg1.win 2).blk t).view.emb j)
  exact (payload_apply (iblk1 V c 0 t) (iblk1 V c 1 t) j
      (ValueIdx.ix2 (⟨0, Nat.one_pos⟩ : Fin 1) (⟨(j 1).val, (j 1).isLt⟩ : Fin 64)) rfl rfl).trans
    ((congrArg₂ clipSum (hidden_block V c t j) (bias_block V c t j)).trans (hG _).symm)

/-! ## The twenty blocks tile the array -/

/-- An entry of the array is in point `t`'s block iff each coordinate is in the block's range on its axis. -/
theorem mem_block (t : Fin cfg1.N) (i : S100000x64.Idx) :
    i ∈ ((cfg1.win 2).blk t).view.set ↔ ∀ a : Fin 2, win1_2.index t a * S5000x64.size a ≤ (i a).val ∧ (i a).val < win1_2.index t a * S5000x64.size a + S5000x64.size a := by
  show i ∈ ((View.whole main_v47).slice (win1_2.rect t)).set ↔ _
  rw [View.set_slice_whole, Rect.mem_set_unit]
  exact Iff.rfl

/-- Row `n` is in the block of point `n / 5000`, and every point writes its block back. -/
theorem cover (i : S100000x64.Idx) :
    ∃ t : Fin cfg1.N, (cfg1.win 2).flush t = true ∧ i ∈ ((cfg1.win 2).blk t).view.set := by
  have hi0 : (i 0).val < 100000 := (i 0).isLt
  have hi1 : (i 1).val < 64 := (i 1).isLt
  have hq : (i 0).val / 5000 < 20 := by omega
  obtain ⟨-, -, -, -, e4, e5⟩ := index_facts ⟨(i 0).val / 5000, hq⟩
  refine ⟨⟨(i 0).val / 5000, hq⟩, flush1_2 _, ?_⟩
  rw [mem_block]
  intro a
  match a with
  | ⟨0, _⟩ =>
    show win1_2.index ⟨(i 0).val / 5000, hq⟩ (0 : Fin 2) * 5000 ≤ (i 0).val ∧ (i 0).val < win1_2.index ⟨(i 0).val / 5000, hq⟩ (0 : Fin 2) * 5000 + 5000
    rw [e4]; show (i 0).val / 5000 * 5000 ≤ (i 0).val ∧ (i 0).val < (i 0).val / 5000 * 5000 + 5000; omega
  | ⟨1, _⟩ =>
    show win1_2.index ⟨(i 0).val / 5000, hq⟩ (1 : Fin 2) * 64 ≤ (i 1).val ∧ (i 1).val < win1_2.index ⟨(i 0).val / 5000, hq⟩ (1 : Fin 2) * 64 + 64
    rw [e5]; omega

/-- The output array after the twenty points is any whole-array function with that entrywise reading. -/
theorem arr_of (c : Dev nD) (G : Vec Ideal S100000x64 .f32)
    (hG : ∀ i : S100000x64.Idx, G i = clipSum (V c main_v45 i) (V c main_v46 (rowEntry i))) :
    (dat1 (F := Ideal) V c).arrAt 2 cfg1.N = G :=
  (dat1 (F := Ideal) V c).arrAt_eq_of_cover 2 G (fun t _ => flushed_eq_of V c t G hG) cover

/-! ## The array is the stage -/

/-- The stage reads the bias row at the same entry, (0, i 1). -/
theorem rowEntry_eq (i : S100000x64.Idx) : Cert.ReferenceIdeal.ReadFix.idx_main_v47 i = rowEntry i :=
  funext fun a => match a with
    | ⟨0, _⟩ => rfl
    | ⟨1, _⟩ => rfl

/-- The output array after the twenty points. -/
theorem arr (c : Dev nD) :
    (dat1 (F := Ideal) V c).arrAt 2 cfg1.N = Cert.Spec.biasRelu (F := Ideal) (V c main_v45) (V c main_v46) :=
  arr_of V c _ fun i => (Cert.Spec.biasRelu_apply _ _ i).trans
    (congrArg (fun k => clipSum (V c main_v45 i) (V c main_v46 k)) (rowEntry_eq i))

end Cert.KernelIdeal.Region1

end
-- ==== Proof.Region2.lean ====
/-
  Region 2, the second dense layer: after the region its output array is the whole product of the hidden layer (100000×64) with the second weight matrix (64×10).
  A grid point t of the twenty reads rows 5000·t … 5000·t + 4999 of the left operand and the whole right operand,
  and writes the same rows of the output; the body is one matrix product into a zero accumulator (the changes of
  float format around it are the identity on the extended reals), so entry (r, j) of what it writes is
  Σₖ left(5000·t + r, k) · right(k, j) over the 64 values of k: the rows of the whole product. The twenty blocks
  tile the array, so after the region the array IS the whole product.
-/
import proofs.«125387_j2903397892892_1_alg».proof.Proof.Gen.KernelIdeal.Frame
import proofs.«125387_j2903397892892_1_alg».proof.Proof.Spec
import Idealize.ShloMosaic.Lib.Pipeline.Value
import Idealize.ShloMosaic.Lib.ValueIdx
import Idealize.ShloMosaic.PureOps.Ideal.Laws

set_option maxRecDepth 16384

noncomputable section

namespace Cert.KernelIdeal.Region2

open Cert.KernelIdeal Cert.KernelIdeal.Gen Idealize.ShloMosaic Idealize.ShloMosaic.TcCoe Idealize.SL.Sem
open Idealize.ShloMosaic.Pipeline (Dat)

/-! ## The body's product at an index -/

/-- Where the product at output index j reads the left operand's block: row j₀, column k. -/
abbrev li (j : S5000x10.Idx) (k : Fin 64) : S5000x64.Idx := fun a => match a with
  | ⟨0, _⟩ => ⟨(j 0).val, (j 0).isLt⟩
  | ⟨1, _⟩ => ⟨k.val, k.isLt⟩
/-- … and the right operand: row k, column j₁. -/
abbrev ri (j : S5000x10.Idx) (k : Fin 64) : S64x10.Idx := fun a => match a with
  | ⟨0, _⟩ => ⟨k.val, k.isLt⟩
  | ⟨1, _⟩ => ⟨(j 1).val, (j 1).isLt⟩

theorem lhs_0 (i : S5000x10.Idx) (q : dot_S5000x64_S64x10_S5000x10_1_0_0_1_n_n.contr.Idx) : (dot_S5000x64_S64x10_S5000x10_1_0_0_1_n_n.lhsIdx i q 0).val = (i 0).val := by
  unfold DotDims.lhsIdx
  rw [dif_neg (show ¬(0 : Fin S5000x64.rank) ∈ dot_S5000x64_S64x10_S5000x10_1_0_0_1_n_n.lhsBatch by decide), dif_pos (show (0 : Fin S5000x64.rank) ∈ dot_S5000x64_S64x10_S5000x10_1_0_0_1_n_n.lhsNonContracting by decide)]
  rfl
theorem lhs_1 (i : S5000x10.Idx) (q : dot_S5000x64_S64x10_S5000x10_1_0_0_1_n_n.contr.Idx) : (dot_S5000x64_S64x10_S5000x10_1_0_0_1_n_n.lhsIdx i q 1).val = (q ⟨0, by decide⟩).val :=
  dot_S5000x64_S64x10_S5000x10_1_0_0_1_n_n.lhsIdx_val_of_single rfl i q
theorem rhs_0 (i : S5000x10.Idx) (q : dot_S5000x64_S64x10_S5000x10_1_0_0_1_n_n.contr.Idx) : (dot_S5000x64_S64x10_S5000x10_1_0_0_1_n_n.rhsIdx i q 0).val = (q ⟨0, by decide⟩).val :=
  dot_S5000x64_S64x10_S5000x10_1_0_0_1_n_n.rhsIdx_val_of_single rfl i q
theorem rhs_1 (i : S5000x10.Idx) (q : dot_S5000x64_S64x10_S5000x10_1_0_0_1_n_n.contr.Idx) : (dot_S5000x64_S64x10_S5000x10_1_0_0_1_n_n.rhsIdx i q 1).val = (i 1).val := by
  unfold DotDims.rhsIdx
  rw [dif_neg (show ¬(1 : Fin S64x10.rank) ∈ dot_S5000x64_S64x10_S5000x10_1_0_0_1_n_n.rhsBatch by decide), dif_pos (show (1 : Fin S64x10.rank) ∈ dot_S5000x64_S64x10_S5000x10_1_0_0_1_n_n.rhsNonContracting by decide)]
  rfl

/-- The body's payload at an index: the sum over k of the products (the accumulator is zero, the narrowings are the identity). -/
theorem pay_apply (x0 : Vec Ideal S5000x64 .f32) (x1 : Vec Ideal S64x10 .f32) (j : S5000x10.Idx) :
    k2_pay1 (F := Ideal) x0 x1 j = ∑ k : Fin 64, x0 (li j k) * x1 (ri j k) := by
  show FloatOps.matmul dot_S5000x64_S64x10_S5000x10_1_0_0_1_n_n none (truncf .bf16 (shapeCast S5000x64 x0 shapeCasts_S5000x64_S5000x64) bitsLt_bf16_f32) (truncf .bf16 x1 bitsLt_bf16_f32) (constant (F := Ideal) S5000x10 .f32 0x00000000#32) j = _
  rw [shapeCast_self, Ideal.matmul_constant_zero_apply, ← Equiv.sum_comp (ValueIdx.contrEquiv1 dot_S5000x64_S64x10_S5000x10_1_0_0_1_n_n 64 rfl rfl).symm]
  refine Finset.sum_congr rfl fun k _ => ?_
  have hk := ValueIdx.contrEquiv1_symm_val dot_S5000x64_S64x10_S5000x10_1_0_0_1_n_n 64 rfl rfl k
  have el : dot_S5000x64_S64x10_S5000x10_1_0_0_1_n_n.lhsIdx j ((ValueIdx.contrEquiv1 dot_S5000x64_S64x10_S5000x10_1_0_0_1_n_n 64 rfl rfl).symm k) = li j k := funext fun a => Fin.ext (by
    match a with
    | ⟨0, _⟩ => exact lhs_0 _ _
    | ⟨1, _⟩ => exact (lhs_1 _ _).trans hk)
  have er : dot_S5000x64_S64x10_S5000x10_1_0_0_1_n_n.rhsIdx j ((ValueIdx.contrEquiv1 dot_S5000x64_S64x10_S5000x10_1_0_0_1_n_n 64 rfl rfl).symm k) = ri j k := funext fun a => Fin.ext (by
    match a with
    | ⟨0, _⟩ => exact (rhs_0 _ _).trans hk
    | ⟨1, _⟩ => exact rhs_1 _ _)
  rw [el, er]
  rfl

/-! ## From the blocks to the array -/

/- the buffer contents at the region's entry: any -/
variable (V : (c : Dev nD) → (b : Ref sig .tc) → Buf (Elt Ideal) ((c : Thread nD τ).loc b))

theorem zero_offsets : (![0, 0] : Fin 2 → Nat) = fun _ => 0 := funext fun a => by fin_cases a <;> rfl

/-- The printed index maps over the twenty points: the left operand's block and the output's move with the point
    along the rows, the right operand is one block. -/
theorem block_indices : ∀ t : Fin cfg2.N,
    win2_0.index t (0 : Fin 2) = t.val ∧ win2_0.index t (1 : Fin 2) = 0
    ∧ win2_1.index t (0 : Fin 2) = 0 ∧ win2_1.index t (1 : Fin 2) = 0
    ∧ win2_2.index t (0 : Fin 2) = t.val ∧ win2_2.index t (1 : Fin 2) = 0 :=
  (by decide +kernel : ∀ t : Fin grid2.N,
    win2_0.index t (0 : Fin 2) = t.val ∧ win2_0.index t (1 : Fin 2) = 0
    ∧ win2_1.index t (0 : Fin 2) = 0 ∧ win2_1.index t (1 : Fin 2) = 0
    ∧ win2_2.index t (0 : Fin 2) = t.val ∧ win2_2.index t (1 : Fin 2) = 0)

/-- What point t writes back is block t of the whole product of the two arrays as the region finds them. -/
theorem flushed_eq (c : Dev nD) (t : Fin cfg2.N) :
    (dat2 (F := Ideal) V c).flushed 2 t
      = ((cfg2.win 2).blk t).view.read (Elt Ideal) (Cert.Spec.dense2 (F := Ideal) (V c main_v47) (V c main_arg4)) := by
  show (cfg2.win 2).cut (grid2.coords t) ((dat2 (F := Ideal) V c).after 2 t) = _
  rw [after2_2]
  unfold out2_2
  rw [View.canon_unit_zero zero_offsets]
  simp only [View.ld_unit_zero (S := S5000x64) zero_offsets, View.ld_unit_zero (S := S64x10) zero_offsets]
  obtain ⟨e0, e1, e2, e3, e4, e5⟩ := block_indices t
  funext j
  show k2_pay1 (F := Ideal) (iblk2 V c 0 t) (iblk2 V c 1 t) j = Cert.Spec.dense2 (F := Ideal) (V c main_v47) (V c main_arg4) (((cfg2.win 2).blk t).view.emb j)
  refine (pay_apply (iblk2 V c 0 t) (iblk2 V c 1 t) j).trans ?_
  rw [Cert.Spec.dense2_apply]
  refine Finset.sum_congr rfl fun k _ => ?_
  have hl : iblk2 V c 0 t (li j k) = V c main_v47 (Cert.ReferenceIdeal.ReadFix.lidx_main_v50 (((cfg2.win 2).blk t).view.emb j) k) := by
    show V c main_v47 (((cfg2.win 0).blk t).view.emb (li j k)) = _
    refine congrArg (V c main_v47) (funext fun a => Fin.ext ?_)
    match a with
    | ⟨0, _⟩ =>
      show win2_0.index t (0 : Fin 2) * 5000 + 1 * (j 0).val = win2_2.index t (0 : Fin 2) * 5000 + 1 * (j 0).val
      omega
    | ⟨1, _⟩ =>
      show win2_0.index t (1 : Fin 2) * 64 + 1 * k.val = k.val
      omega
  have hr : iblk2 V c 1 t (ri j k) = V c main_arg4 (Cert.ReferenceIdeal.ReadFix.ridx_main_v50 (((cfg2.win 2).blk t).view.emb j) k) := by
    show V c main_arg4 (((cfg2.win 1).blk t).view.emb (ri j k)) = _
    refine congrArg (V c main_arg4) (funext fun a => Fin.ext ?_)
    match a with
    | ⟨0, _⟩ =>
      show win2_1.index t (0 : Fin 2) * 64 + 1 * k.val = k.val
      omega
    | ⟨1, _⟩ =>
      show win2_1.index t (1 : Fin 2) * 10 + 1 * (j 1).val = win2_2.index t (1 : Fin 2) * 10 + 1 * (j 1).val
      omega
  rw [hl, hr]

/-- An index of the output array is in point t's block iff each coordinate is in the block's range on its axis. -/
theorem mem_blk (t : Fin cfg2.N) (i : S100000x10.Idx) :
    i ∈ ((cfg2.win 2).blk t).view.set ↔ ∀ a : Fin 2, win2_2.index t a * S5000x10.size a ≤ (i a).val ∧ (i a).val < win2_2.index t a * S5000x10.size a + S5000x10.size a := by
  show i ∈ ((View.whole main_v48).slice (win2_2.rect t)).set ↔ _
  rw [View.set_slice_whole, Rect.mem_set_unit]
  exact Iff.rfl

/-- Every index of the output array lies in the block of the point that holds its row: row r in point r / 5000. -/
theorem cover (i : S100000x10.Idx) : ∃ t : Fin cfg2.N, (cfg2.win 2).flush t = true ∧ i ∈ ((cfg2.win 2).blk t).view.set := by
  have hi0 : (i 0).val < 100000 := (i 0).isLt
  have hi1 : (i 1).val < 10 := (i 1).isLt
  obtain ⟨t, ht⟩ : ∃ t : Fin cfg2.N, t.val = (i 0).val / 5000 := ⟨⟨(i 0).val / 5000, by show (i 0).val / 5000 < grid2.N; rw [N_2]; omega⟩, rfl⟩
  obtain ⟨e0, e1, e2, e3, e4, e5⟩ := block_indices t
  refine ⟨t, flush2_2 t, ?_⟩
  rw [mem_blk]
  intro a
  match a with
  | ⟨0, _⟩ =>
    show win2_2.index t (0 : Fin 2) * 5000 ≤ (i 0).val ∧ (i 0).val < win2_2.index t (0 : Fin 2) * 5000 + 5000
    omega
  | ⟨1, _⟩ =>
    show win2_2.index t (1 : Fin 2) * 10 ≤ (i 1).val ∧ (i 1).val < win2_2.index t (1 : Fin 2) * 10 + 10
    omega

/-- The output array after the twenty points: the whole product. -/
theorem arr (c : Dev nD) :
    (dat2 (F := Ideal) V c).arrAt 2 cfg2.N = Cert.Spec.dense2 (F := Ideal) (V c main_v47) (V c main_arg4) :=
  (dat2 (F := Ideal) V c).arrAt_eq_of_cover 2 (Cert.Spec.dense2 (F := Ideal) (V c main_v47) (V c main_arg4)) (fun t _ => flushed_eq V c t) (cover)

end Cert.KernelIdeal.Region2

end
-- ==== Proof.Region3.lean ====
/-
  Region 3 (bias and row-wise log-softmax of the logits, 20 blocks of 5000 nodes): after the region its output array is the log-softmax of the aggregated logits plus the bias row, on the whole array.
  A grid point t of the twenty reads rows 5000·t … 5000·t + 4999 of the logits array and the whole bias row, and writes the
  same rows of the output. The body adds the bias row to each row of the block, z(r, k) = a(r, k) + b(0, k); takes each
  row's largest entry M(r), the fold of max from −∞ over the ten classes; takes it off, exponentiates, sums each row, takes
  the log and takes that off too: entry (r, q) of what it writes is z(r, q) − M(r) − log Σₖ exp (z(r, k) − M(r)). Every
  step but the two row reductions is entry by entry, and a row reduction reads only its own row, so the block's entry
  (r, q) is entry (5000·t + r, q) of the same formula on the whole arrays. The twenty blocks tile the array, so after the
  region the array IS the row-wise log-softmax of the logits plus the bias.
-/
import proofs.«125387_j2903397892892_1_alg».proof.Proof.Gen.KernelIdeal.Frame
import proofs.«125387_j2903397892892_1_alg».proof.Proof.Spec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Region3

open Cert.KernelIdeal Cert.KernelIdeal.Gen Idealize.ShloMosaic Idealize.ShloMosaic.TcCoe Idealize.SL.Sem
open Idealize.ShloMosaic.Pipeline (Dat)
open Idealize.ShloMosaic.ValueIdx

/-! ## Two layout steps the body uses: a vector as a column, a column spread over the classes -/

/-- A vector of length a viewed as the column [a, 1] reads, at (i, u), the vector at i. -/
theorem column_apply {α : Type} {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column [a, 1] spread over b columns reads, at (p, c), the column's entry of row p. -/
theorem spread_apply {α : Type} {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- A per-row value, made a column and spread over the ten classes, reads at (r, q) the value of row r. -/
theorem perRow_apply (v : FVec Ideal S5000 .f32) (r : Fin 5000) (q : Fin 10) :
    broadcastTo S5000x10 (shapeCast S5000x1 v shapeCasts_S5000_S5000x1) broadcasts_S5000x1_S5000x10 (ix2 r q) = v (ix1 r) :=
  (spread_apply _ broadcasts_S5000x1_S5000x10 r q).trans (column_apply v shapeCasts_S5000_S5000x1 r 0)

/-! ## The body's stages, each read at an index -/

/-- The block with the bias row added to each of its rows, as the body forms it. -/
def biased (x0 : Vec Ideal S5000x10 .f32) (x1 : Vec Ideal S1x10 .f32) : FVec Ideal S5000x10 .f32 :=
  addf (shapeCast S5000x10 x0 shapeCasts_S5000x10_S5000x10) (broadcastTo S5000x10 (shapeCast S1x10 x1 shapeCasts_S1x10_S1x10) broadcasts_S1x10_S5000x10)

/-- Each row's largest entry, spread back over the row. -/
def rowTopSpread (z : FVec Ideal S5000x10 .f32) : FVec Ideal S5000x10 .f32 :=
  broadcastTo S5000x10 (shapeCast S5000x1 (multiReduction .maximumf [1] S5000 z 0xFF800000#32 reduces_S5000x10_S5000 (.inl rfl) rfl) shapeCasts_S5000_S5000x1) broadcasts_S5000x1_S5000x10

/-- Each row with its largest entry taken off. -/
def shifted (z : FVec Ideal S5000x10 .f32) : FVec Ideal S5000x10 .f32 := subf z (rowTopSpread z)

/-- The log of each row's sum of exponentials, spread back over the row. -/
def logSumSpread (s : FVec Ideal S5000x10 .f32) : FVec Ideal S5000x10 .f32 :=
  broadcastTo S5000x10 (log (shapeCast S5000x1 (multiReduction .add [1] S5000 (exp s) 0x00000000#32 reduces_S5000x10_S5000 (.inl rfl) rfl) shapeCasts_S5000_S5000x1)) broadcasts_S5000x1_S5000x10

/-- The body's payload is the shifted logits less the log of their row sums of exponentials. -/
theorem pay_eq (x0 : Vec Ideal S5000x10 .f32) (x1 : Vec Ideal S1x10 .f32) :
    k3_pay1 (F := Ideal) x0 x1 = subf (shifted (biased x0 x1)) (logSumSpread (shifted (biased x0 x1))) := rfl

/-- The logit of row r, class k: the block's entry plus the bias row's. -/
def logit (x0 : Vec Ideal S5000x10 .f32) (x1 : Vec Ideal S1x10 .f32) (r : Fin 5000) (k : Fin 10) : EReal :=
  x0 (ix2 r k) + x1 (ix2 (0 : Fin 1) k)

/-- The largest logit of row r: the fold of max from −∞ over the ten classes. -/
def rowTop (z : FVec Ideal S5000x10 .f32) (r : Fin 5000) : EReal :=
  (Finset.univ : Finset (Fin 10)).fold max (Ideal.ofBits .f32 0xFF800000#32) (fun k => z (ix2 r k))

theorem biased_apply (x0 : Vec Ideal S5000x10 .f32) (x1 : Vec Ideal S1x10 .f32) (r : Fin 5000) (k : Fin 10) :
    biased x0 x1 (ix2 r k) = logit x0 x1 r k := by
  unfold biased logit
  rw [shapeCast_self, shapeCast_self]
  show x0 (ix2 r k) + broadcastTo S5000x10 x1 broadcasts_S1x10_S5000x10 (ix2 r k) = _
  rw [broadcastTo_1b_ab_apply]

/-- The lane maximum of a block, read at row r: the fold of max from −∞ over the row. -/
theorem laneMax_apply (z : FVec Ideal S5000x10 .f32) (hφ : FKind.Formats .f32)
    (hacc : (0xFF800000#32 : BitVec 32) = FKind.maximumf.neutral .f32 hφ) (r : Fin 5000) :
    multiReduction (F := Ideal) .maximumf [1] S5000 z 0xFF800000#32 reduces_S5000x10_S5000 hφ hacc (ix1 r) = rowTop z r := by
  refine (Ideal.multiReduction_maximumf_single z _ reduces_S5000x10_S5000 hφ hacc (ix1 r)).trans ?_
  have hl : (fun k : Fin 10 => z (reduces_S5000x10_S5000.lift (ix1 r) k)) = fun k => z (ix2 r k) :=
    funext fun k => congrArg z (funext fun a => Fin.ext (by match a with | ⟨0, _⟩ => rfl | ⟨1, _⟩ => rfl))
  show (Finset.univ : Finset (Fin 10)).fold max (Ideal.ofBits .f32 0xFF800000#32) (fun k : Fin 10 => z (reduces_S5000x10_S5000.lift (ix1 r) k)) = _
  exact congrArg (fun f : Fin 10 → EReal => Finset.fold max (Ideal.ofBits .f32 0xFF800000#32) f (Finset.univ : Finset (Fin 10))) hl

/-- The lane sum of a block, read at row r: the sum over the row. -/
theorem laneSum_apply (e : FVec Ideal S5000x10 .f32) (hφ : FKind.Formats .f32)
    (hacc : (0x00000000#32 : BitVec 32) = FKind.add.neutral .f32 hφ) (r : Fin 5000) :
    multiReduction (F := Ideal) .add [1] S5000 e 0x00000000#32 reduces_S5000x10_S5000 hφ hacc (ix1 r) = ∑ k : Fin 10, e (ix2 r k) := by
  refine (Ideal.multiReduction_add_single e _ reduces_S5000x10_S5000 hφ hacc (ix1 r)).trans ?_
  show ∑ k : Fin 10, e (reduces_S5000x10_S5000.lift (ix1 r) k) = _
  refine Finset.sum_congr rfl fun k _ => ?_
  exact congrArg e (funext fun a => Fin.ext (by match a with | ⟨0, _⟩ => rfl | ⟨1, _⟩ => rfl))

theorem rowTopSpread_apply (z : FVec Ideal S5000x10 .f32) (r : Fin 5000) (q : Fin 10) :
    rowTopSpread z (ix2 r q) = rowTop z r := by
  unfold rowTopSpread
  exact (perRow_apply _ r q).trans (laneMax_apply z _ _ r)

theorem shifted_apply (z : FVec Ideal S5000x10 .f32) (r : Fin 5000) (q : Fin 10) :
    shifted z (ix2 r q) = z (ix2 r q) - rowTop z r := by
  show z (ix2 r q) - rowTopSpread z (ix2 r q) = _
  rw [rowTopSpread_apply]

theorem logSumSpread_apply (s : FVec Ideal S5000x10 .f32) (r : Fin 5000) (q : Fin 10) :
    logSumSpread s (ix2 r q) = Ideal.log (∑ k : Fin 10, Ideal.exp (s (ix2 r k))) := by
  unfold logSumSpread
  refine (spread_apply _ broadcasts_S5000x1_S5000x10 r q).trans ?_
  show Ideal.log (shapeCast S5000x1 _ shapeCasts_S5000_S5000x1 (ix2 r (0 : Fin 1))) = _
  refine congrArg Ideal.log ((column_apply _ shapeCasts_S5000_S5000x1 r 0).trans ((laneSum_apply (exp s) _ _ r).trans ?_))
  rfl

/-- The largest logit of row r of the block. -/
def logitTop (x0 : Vec Ideal S5000x10 .f32) (x1 : Vec Ideal S1x10 .f32) (r : Fin 5000) : EReal :=
  (Finset.univ : Finset (Fin 10)).fold max (Ideal.ofBits .f32 0xFF800000#32) (fun k => logit x0 x1 r k)

theorem rowTop_biased (x0 : Vec Ideal S5000x10 .f32) (x1 : Vec Ideal S1x10 .f32) (r : Fin 5000) :
    rowTop (biased x0 x1) r = logitTop x0 x1 r :=
  congrArg (fun f => Finset.fold max (Ideal.ofBits .f32 0xFF800000#32) f (Finset.univ : Finset (Fin 10))) (funext fun k => biased_apply x0 x1 r k)

/-- THE PAYLOAD AT (r, q): the logit less its row's largest, less the log of the row's sum of exponentials of the same. -/
theorem pay_apply (x0 : Vec Ideal S5000x10 .f32) (x1 : Vec Ideal S1x10 .f32) (r : Fin 5000) (q : Fin 10) :
    k3_pay1 (F := Ideal) x0 x1 (ix2 r q)
      = (logit x0 x1 r q - logitTop x0 x1 r) - Ideal.log (∑ k : Fin 10, Ideal.exp (logit x0 x1 r k - logitTop x0 x1 r)) := by
  rw [pay_eq]
  show shifted (biased x0 x1) (ix2 r q) - logSumSpread (shifted (biased x0 x1)) (ix2 r q) = _
  rw [logSumSpread_apply, shifted_apply, biased_apply, rowTop_biased]
  refine congrArg (fun t => _ - Ideal.log t) (Finset.sum_congr rfl fun k _ => ?_)
  rw [shifted_apply, biased_apply, rowTop_biased]

/-! ## One point's payload against the whole-array function -/

/-- Row T·5000 + r of the array: row r of the T-th block of 5000 rows. -/
abbrev rowAt (T : Nat) (hT : T < 20) (r : Fin 5000) : Fin 100000 := ⟨T * 5000 + r.val, by have := r.isLt; omega⟩

/-- If the first block holds rows T·5000 … T·5000 + 4999 of the array a and the second is the bias row b, entry (r, q) of
    the payload is entry (T·5000 + r, q) of the row-wise log-softmax of a plus b: the two read the same ten logits. -/
theorem point_eq (a : (⟨Cert.ReferenceIdeal.S100000x10, .f32⟩ : BufTy).Contents (Elt Ideal)) (b : (⟨Cert.ReferenceIdeal.S1x10, .f32⟩ : BufTy).Contents (Elt Ideal))
    (x0 : Vec Ideal S5000x10 .f32) (x1 : Vec Ideal S1x10 .f32) (T : Nat) (hT : T < 20)
    (h0 : ∀ (r : Fin 5000) (k : Fin 10), x0 (ix2 r k) = a (ix2 (rowAt T hT r) k))
    (h1 : ∀ k : Fin 10, x1 (ix2 (0 : Fin 1) k) = b (ix2 (0 : Fin 1) k))
    (r : Fin 5000) (q : Fin 10) :
    k3_pay1 (F := Ideal) x0 x1 (ix2 r q) = Cert.Spec.biasLsm (F := Ideal) a b (ix2 (rowAt T hT r) q) := by
  have hl : ∀ k : Fin 10, Cert.Spec.logits a b (Cert.ReferenceIdeal.ReadFix.idx_main_call2_v7 (Cert.Spec.rowOf (ix2 (rowAt T hT r) q)) k)
      = logit x0 x1 r k := fun k => by
    show a _ + b _ = x0 (ix2 r k) + x1 (ix2 (0 : Fin 1) k)
    rw [h0, h1]
    exact congrArg₂ (· + ·)
      (congrArg a (funext fun ax => Fin.ext (by match ax with | ⟨0, _⟩ => rfl | ⟨1, _⟩ => rfl)))
      (congrArg b (funext fun ax => Fin.ext (by match ax with | ⟨0, _⟩ => rfl | ⟨1, _⟩ => rfl)))
  have hq : Cert.Spec.logits a b (ix2 (rowAt T hT r) q) = logit x0 x1 r q := by
    show a _ + b _ = x0 (ix2 r q) + x1 (ix2 (0 : Fin 1) q)
    rw [h0, h1]
    exact congrArg (fun y => a (ix2 (rowAt T hT r) q) + b y)
      (funext fun ax => Fin.ext (by match ax with | ⟨0, _⟩ => rfl | ⟨1, _⟩ => rfl))
  have hM : Cert.Spec.logitMax a b (Cert.Spec.rowOf (ix2 (rowAt T hT r) q)) = logitTop x0 x1 r :=
    congrArg (fun f => Finset.fold max (Ideal.ofBits .f32 0xFF800000#32) f (Finset.univ : Finset (Fin 10))) (funext hl)
  rw [pay_apply, Cert.Spec.biasLsm_apply, hq, hM]
  refine congrArg (fun s => _ - Ideal.log s) (Finset.sum_congr rfl fun k _ => ?_)
  rw [hl]

/-! ## From the blocks to the array -/

/- the buffer contents at the region's entry: any -/
variable (V : (c : Dev nD) → (b : Ref sig .tc) → Buf (Elt Ideal) ((c : Thread nD τ).loc b))

theorem no_offset : (![0, 0] : Fin 2 → Nat) = fun _ => 0 := funext fun a => by fin_cases a <;> rfl

/-- The printed index maps over the twenty points: the logits' block and the output's are the point's block of rows,
    the bias row is one block. -/
theorem blocks_of_point : ∀ t : Fin cfg3.N,
    win3_0.index t (0 : Fin 2) = t.val ∧ win3_0.index t (1 : Fin 2) = 0
    ∧ win3_1.index t (0 : Fin 2) = 0 ∧ win3_1.index t (1 : Fin 2) = 0
    ∧ win3_2.index t (0 : Fin 2) = t.val ∧ win3_2.index t (1 : Fin 2) = 0 :=
  (by decide +kernel : ∀ t : Fin grid3.N,
    win3_0.index t (0 : Fin 2) = t.val ∧ win3_0.index t (1 : Fin 2) = 0
    ∧ win3_1.index t (0 : Fin 2) = 0 ∧ win3_1.index t (1 : Fin 2) = 0
    ∧ win3_2.index t (0 : Fin 2) = t.val ∧ win3_2.index t (1 : Fin 2) = 0)

/-- What point t writes back is block t of the log-softmax of the logits array plus the bias row, as the region finds them. -/
theorem flushed_eq (c : Dev nD) (t : Fin cfg3.N) :
    (dat3 (F := Ideal) V c).flushed 2 t
      = ((cfg3.win 2).blk t).view.read (Elt Ideal) (Cert.Spec.biasLsm (F := Ideal) (V c main_v61) (V c main_v62)) := by
  show (cfg3.win 2).cut (grid3.coords t) ((dat3 (F := Ideal) V c).after 2 t) = _
  rw [after3_2]
  unfold out3_2
  rw [View.canon_unit_zero no_offset]
  simp only [View.ld_unit_zero (S := S5000x10) no_offset, View.ld_unit_zero (S := S1x10) no_offset]
  obtain ⟨e0, e1, e2, e3, e4, e5⟩ := blocks_of_point t
  have ht : t.val < 20 := lt_of_lt_of_eq t.isLt N_3
  funext j
  have hr : (j 0).val < 5000 := (j 0).isLt
  have hq : (j 1).val < 10 := (j 1).isLt
  have hj : (cfg3.win 2).xinj (grid3.coords t) j = ix2 (⟨(j 0).val, hr⟩ : Fin 5000) (⟨(j 1).val, hq⟩ : Fin 10) :=
    funext fun a => by match a with | ⟨0, _⟩ => rfl | ⟨1, _⟩ => rfl
  show k3_pay1 (F := Ideal) (iblk3 V c 0 t) (iblk3 V c 1 t) ((cfg3.win 2).xinj (grid3.coords t) j)
    = Cert.Spec.biasLsm (F := Ideal) (V c main_v61) (V c main_v62) (((cfg3.win 2).blk t).view.emb j)
  refine (congrArg (k3_pay1 (F := Ideal) (iblk3 V c 0 t) (iblk3 V c 1 t)) hj).trans ?_
  refine (point_eq (V c main_v61) (V c main_v62) (iblk3 V c 0 t) (iblk3 V c 1 t) t.val ht ?_ ?_ ⟨(j 0).val, hr⟩ ⟨(j 1).val, hq⟩).trans ?_
  · intro r k
    show V c main_v61 (((cfg3.win 0).blk t).view.emb (ix2 r k)) = _
    refine congrArg (V c main_v61) (funext fun a => Fin.ext ?_)
    match a with
    | ⟨0, _⟩ =>
      show win3_0.index t (0 : Fin 2) * 5000 + 1 * r.val = t.val * 5000 + r.val
      omega
    | ⟨1, _⟩ =>
      show win3_0.index t (1 : Fin 2) * 10 + 1 * k.val = k.val
      omega
  · intro k
    show V c main_v62 (((cfg3.win 1).blk t).view.emb (ix2 (0 : Fin 1) k)) = _
    refine congrArg (V c main_v62) (funext fun a => Fin.ext ?_)
    match a with
    | ⟨0, _⟩ =>
      show win3_1.index t (0 : Fin 2) * 1 + 1 * 0 = 0
      omega
    | ⟨1, _⟩ =>
      show win3_1.index t (1 : Fin 2) * 10 + 1 * k.val = k.val
      omega
  · refine congrArg (Cert.Spec.biasLsm (F := Ideal) (V c main_v61) (V c main_v62)) (funext fun a => Fin.ext ?_)
    match a with
    | ⟨0, _⟩ =>
      show t.val * 5000 + (j 0).val = win3_2.index t (0 : Fin 2) * 5000 + 1 * (j 0).val
      omega
    | ⟨1, _⟩ =>
      show (j 1).val = win3_2.index t (1 : Fin 2) * 10 + 1 * (j 1).val
      omega

/-- An index of the output array is in point t's block iff each coordinate is in the block's range on its axis. -/
theorem mem_blk (t : Fin cfg3.N) (i : S100000x10.Idx) :
    i ∈ ((cfg3.win 2).blk t).view.set ↔ ∀ a : Fin 2, win3_2.index t a * S5000x10.size a ≤ (i a).val ∧ (i a).val < win3_2.index t a * S5000x10.size a + S5000x10.size a := by
  show i ∈ ((View.whole main_v63).slice (win3_2.rect t)).set ↔ _
  rw [View.set_slice_whole, Rect.mem_set_unit]
  exact Iff.rfl

/-- Every index of the output array lies in the block of the point that holds its row: row n in point n / 5000. -/
theorem cover (i : S100000x10.Idx) : ∃ t : Fin cfg3.N, (cfg3.win 2).flush t = true ∧ i ∈ ((cfg3.win 2).blk t).view.set := by
  have hi0 : (i 0).val < 100000 := (i 0).isLt
  have hi1 : (i 1).val < 10 := (i 1).isLt
  have hN : (i 0).val / 5000 < cfg3.N := by
    show (i 0).val / 5000 < grid3.N
    rw [N_3]; omega
  obtain ⟨t, ht⟩ : ∃ t : Fin cfg3.N, t.val = (i 0).val / 5000 := ⟨⟨(i 0).val / 5000, hN⟩, rfl⟩
  obtain ⟨e0, e1, e2, e3, e4, e5⟩ := blocks_of_point t
  refine ⟨t, flush3_2 t, ?_⟩
  rw [mem_blk]
  intro a
  match a with
  | ⟨0, _⟩ =>
    show win3_2.index t (0 : Fin 2) * 5000 ≤ (i 0).val ∧ (i 0).val < win3_2.index t (0 : Fin 2) * 5000 + 5000
    omega
  | ⟨1, _⟩ =>
    show win3_2.index t (1 : Fin 2) * 10 ≤ (i 1).val ∧ (i 1).val < win3_2.index t (1 : Fin 2) * 10 + 10
    omega

/-- The output array after the twenty points. -/
theorem arr (c : Dev nD) :
    (dat3 (F := Ideal) V c).arrAt 2 cfg3.N = Cert.Spec.biasLsm (F := Ideal) (V c main_v61) (V c main_v62) :=
  (dat3 (F := Ideal) V c).arrAt_eq_of_cover 2 (Cert.Spec.biasLsm (F := Ideal) (V c main_v61) (V c main_v62)) (fun t _ => flushed_eq V c t) cover

end Cert.KernelIdeal.Region3

end
-- ==== Proof.Bridge.lean ====
/-
  The kernel program's result is the reference's last stage of the kernel's own arguments.

  Boundary by boundary through the program: the first region leaves the first dense layer of the features and the
  first weights (the reference's stage 32); the host stretch after it the first neighbourhood sum of that (stage 45)
  and the bias row (stage 46); the second region their clipped sum (stage 49); the third region its product with the
  second weights (stage 50); the next stretch the second neighbourhood sum (stage 63) and the bias row (stage 64);
  the last region the row-wise log-softmax of their sum (stage 67, the reference's result).
-/
import proofs.«125387_j2903397892892_1_alg».proof.Proof.HostGlue
import proofs.«125387_j2903397892892_1_alg».proof.Proof.Region0
import proofs.«125387_j2903397892892_1_alg».proof.Proof.Region1
import proofs.«125387_j2903397892892_1_alg».proof.Proof.Region2
import proofs.«125387_j2903397892892_1_alg».proof.Proof.Region3

set_option maxRecDepth 16384

noncomputable section

namespace Cert.KernelIdeal.Bridge

open Cert.KernelIdeal Cert.KernelIdeal.Gen Cert.KernelIdeal.Glue Idealize.ShloMosaic Idealize.ShloMosaic.TcCoe Idealize.SL.Sem

variable (m : (ℓ : Loc nD τ sig) → Buf (Elt Ideal) ℓ) (ρ : Dev nD → PrngReg) (c : Dev nD)

/-- After the first region: the first dense layer. -/
theorem at_v32 : W4 m ρ c (Proc.devRef .tc main_v32) = Cert.ReferenceIdeal.ReadFix.val_main_v32 (F := Ideal) (m ((c : Thread nD τ).loc main_arg0)) (m ((c : Thread nD τ).loc main_arg2)) := by
  refine (W4_arr m ρ c 2).trans ?_
  refine (Cert.KernelIdeal.Region0.arr (V3 m ρ) c).trans ?_
  show Cert.Spec.dense1 (F := Ideal) (W3 m ρ c (Proc.devRef .tc main_arg0)) (W3 m ρ c (Proc.devRef .tc main_arg2)) = _
  rw [w3_arg0, w3_arg2]
  exact (Cert.Spec.stage_v32 _ _).symm

/-- At the second region's entry: the first neighbourhood sum. -/
theorem at_v45 : W5 m ρ c (Proc.devRef .tc main_v45) = Cert.ReferenceIdeal.ReadFix.val_main_v45 (F := Ideal) (m ((c : Thread nD τ).loc main_arg0)) (m ((c : Thread nD τ).loc main_arg1)) (m ((c : Thread nD τ).loc main_arg2)) :=
  (w5_v45 m ρ c _ (at_v32 m ρ c)).trans (Cert.Spec.stage_v45 _ _ _).symm

/-- After the second region: the clipped hidden layer. -/
theorem at_v47 : W6 m ρ c (Proc.devRef .tc main_v47) = Cert.ReferenceIdeal.ReadFix.val_main_v49 (F := Ideal) (m ((c : Thread nD τ).loc main_arg0)) (m ((c : Thread nD τ).loc main_arg1)) (m ((c : Thread nD τ).loc main_arg2)) (m ((c : Thread nD τ).loc main_arg3)) := by
  refine (W6_arr m ρ c 2).trans ?_
  refine (Cert.KernelIdeal.Region1.arr (V5 m ρ) c).trans ?_
  show Cert.Spec.biasRelu (F := Ideal) (W5 m ρ c (Proc.devRef .tc main_v45)) (W5 m ρ c (Proc.devRef .tc main_v46)) = _
  rw [at_v45, w5_v46]
  exact (Cert.Spec.stage_v49 _ _ _ _).symm

/-- After the third region: the second dense layer. -/
theorem at_v48 : W7 m ρ c (Proc.devRef .tc main_v48) = Cert.ReferenceIdeal.ReadFix.val_main_v50 (F := Ideal) (m ((c : Thread nD τ).loc main_arg0)) (m ((c : Thread nD τ).loc main_arg1)) (m ((c : Thread nD τ).loc main_arg2)) (m ((c : Thread nD τ).loc main_arg3)) (m ((c : Thread nD τ).loc main_arg4)) := by
  refine (W7_arr m ρ c 2).trans ?_
  refine (Cert.KernelIdeal.Region2.arr (V6 m ρ) c).trans ?_
  show Cert.Spec.dense2 (F := Ideal) (W6 m ρ c (Proc.devRef .tc main_v47)) (W6 m ρ c (Proc.devRef .tc main_arg4)) = _
  rw [at_v47, w6_arg4]
  exact (Cert.Spec.stage_v50 _ _ _ _ _).symm

/-- At the last region's entry: the second neighbourhood sum. -/
theorem at_v61 : W8 m ρ c (Proc.devRef .tc main_v61) = Cert.ReferenceIdeal.ReadFix.val_main_v63 (F := Ideal) (m ((c : Thread nD τ).loc main_arg0)) (m ((c : Thread nD τ).loc main_arg1)) (m ((c : Thread nD τ).loc main_arg2)) (m ((c : Thread nD τ).loc main_arg3)) (m ((c : Thread nD τ).loc main_arg4)) :=
  (w8_v61 m ρ c _ (at_v48 m ρ c)).trans (Cert.Spec.stage_v63 _ _ _ _ _).symm

/-- After the last region: the program's result is the reference's result stage. -/
theorem out_eq : W9 m ρ c (Proc.devRef .tc main_v63) = Cert.ReferenceIdeal.ReadFix.val_main_v67 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) := by
  refine (W9_arr m ρ c 2).trans ?_
  refine (Cert.KernelIdeal.Region3.arr (V8 m ρ) c).trans ?_
  show Cert.Spec.biasLsm (F := Ideal) (W8 m ρ c (Proc.devRef .tc main_v61)) (W8 m ρ c (Proc.devRef .tc main_v62)) = _
  rw [at_v61, w8_v62]
  exact (Cert.Spec.stage_v67 _ _ _ _ _ _).symm

end Cert.KernelIdeal.Bridge

end
-- ==== Proof.lean ====
/-
  The certificate of a two-layer graph convolution: node features times weights, a normalised neighbourhood sum,
  bias and clipping, a second product, a second neighbourhood sum, bias and a row-wise log-softmax.

  The kernel program runs the two products, the clipping and the log-softmax as four pipelined regions over
  twenty blocks of 5000 nodes and leaves the neighbourhood sums to the same host gather / scatter operations the
  reference uses; the reference runs everything on the host. At the extended reals each region's output array is
  the reference's stage on the same inputs: a blocked matrix product into a zero accumulator is the whole product
  (the same sums, entry by entry), the bias and clipping are pointwise, and the blocked log-softmax is row-wise,
  each row inside one block; the reference's extra maximum of the row maximum with −∞ changes nothing. No law of
  arithmetic beyond that is used, so the precondition is never opened.

  Frames: the two kernel programs by their generated frames, the reference by its run. Nothing was rewritten by the
  idealization, so `preserves` is trivial. The value claim: the kernel's run names its result (Proof/KRun.lean),
  the bridge identifies it with the reference's last stage (Proof/Bridge.lean over Proof/Region0 … Region3 and
  Proof/HostGlue.lean), and the reference's run ends at that stage of arguments that agree.
-/
import proofs.«125387_j2903397892892_1_alg».proof.Defs
import proofs.«125387_j2903397892892_1_alg».proof.Proof.Gen.Kernel
import proofs.«125387_j2903397892892_1_alg».proof.Proof.Gen.Kernel.Skeleton
import proofs.«125387_j2903397892892_1_alg».proof.Proof.Gen.Kernel.Launch
import proofs.«125387_j2903397892892_1_alg».proof.Proof.Gen.Kernel.Points
import proofs.«125387_j2903397892892_1_alg».proof.Proof.Gen.Kernel.Frame
import proofs.«125387_j2903397892892_1_alg».proof.Proof.Gen.KernelIdeal
import proofs.«125387_j2903397892892_1_alg».proof.Proof.Gen.KernelIdeal.Skeleton
import proofs.«125387_j2903397892892_1_alg».proof.Proof.Gen.KernelIdeal.Launch
import proofs.«125387_j2903397892892_1_alg».proof.Proof.Gen.KernelIdeal.Points
import proofs.«125387_j2903397892892_1_alg».proof.Proof.Gen.KernelIdeal.Frame
import proofs.«125387_j2903397892892_1_alg».proof.Proof.Gen.ReferenceIdeal
import proofs.«125387_j2903397892892_1_alg».proof.Proof.Gen.Pre_finite_inputs
import proofs.«125387_j2903397892892_1_alg».proof.Proof.RefStages
import proofs.«125387_j2903397892892_1_alg».proof.Proof.KRun
import proofs.«125387_j2903397892892_1_alg».proof.Proof.Bridge
import Idealize.ShloMosaic.Adequacy
import Idealize.ShloMosaic.Init

noncomputable section

namespace Cert.Proof

open Idealize.ShloMosaic Idealize.ShloMosaic.TcCoe Idealize.SL.Sem

theorem frame_k : Cert.frame_Kernel := fun m ρ _ => Cert.Kernel.Gen.frame m ρ
theorem frame_ki : Cert.frame_KernelIdeal := fun m ρ _ => Cert.KernelIdeal.Gen.frame m ρ
/-- The reference's frame is its run with the result dropped. -/
theorem frame_ri : Cert.frame_ReferenceIdeal := fun m ρ _ =>
  (θ_run Cert.ReferenceIdeal.defs _ _).mono (fun _ h c => (h c).2) (Cert.ReferenceIdeal.ValueFix.run (F := Ideal) m ρ)

/-- Both runs end with the result at the reference's last stage of the kernel's arguments: the kernel's by the
    bridge, the reference's by its own read-back, its arguments rewritten by the agreement. -/
theorem algebraic : Cert.algebraic_KernelIdeal_ReferenceIdeal := by
  intro m ρ m' ρ' _ hagree
  refine ⟨fun c => Cert.ReferenceIdeal.ReadFix.val_main_v67 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)), ?_, ?_⟩
  · exact (θ_run Cert.KernelIdeal.defs _ _).mono (fun r h c => ⟨(h c).1.trans (Cert.KernelIdeal.Bridge.out_eq m ρ c), (h c).2⟩)
      (Cert.KernelIdeal.KRun.run_out (F := Ideal) m ρ)
  · refine (θ_run Cert.ReferenceIdeal.defs _ _).mono (fun _ h c => ⟨(h c).1.trans ?_, (h c).2⟩)
      (Cert.ReferenceIdeal.ValueFix.run (F := Ideal) m' ρ')
    rw [Cert.ReferenceIdeal.ReadFix.val_main_v67_eq, (hagree c).1, (hagree c).2.1, (hagree c).2.2.1, (hagree c).2.2.2.1, (hagree c).2.2.2.2.1, (hagree c).2.2.2.2.2]

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
